-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v13_0)) (v3 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v13_0) = v2 c
          ∧ r.2.mem ((c.tc : Thread Cert.KernelIdeal.nD Cert.KernelIdeal.τ).loc Cert.KernelIdeal.main_v13_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4x1024x2048 : Shape := ⟨3, ![4, 1024, 2048]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1024x2048 : S_.BroadcastsInDim S4x1024x2048 (![] : Fin 0 → Fin S4x1024x2048.rank)
  reducesTo_S4x1024x2048_S_d0_1_2 : S4x1024x2048.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part2 {F : FTy → Type} [FloatOps F] (main_arg7 : FVec F S4x1024 .f32) (main_arg8 : FVec F S4x1024x2048 .f32) (main_arg9 : FVec F S4x1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S4x1024x2048 .f32 := Host.absf main_arg8
  let main_cst_14 : FVec F S_ .f32 := constant S_ .f32 0x7F800000#32
  let main_v40 : FVec F S4x1024x2048 .f32 := broadcastInDim S4x1024x2048 ![] bcast_S_S4x1024x2048 main_cst_14
  let main_v41 : IVec S4x1024x2048 1 := cmpf .olt main_v39 main_v40
  let main_c_15 : IVec S_ 1 := constantI S_ 1 1#1
  let main_v42 : IVec S_ 1 := (fun x v => Host.reduce IntOp.andi x v reducesTo_S4x1024x2048_S_d0_1_2 h_S_) main_v41 main_c_15
  let main_v43 : IVec S_ 1 := andi main_v38 main_v42
  let main_v44 : FVec F S4x1024 .f32 := Host.absf main_arg9
  let main_cst_16 : FVec F S_ .f32 := constant S_ .f32 0x7F800000#32
  let main_v45 : FVec F S4x1024 .f32 := broadcastInDim S4x1024 ![] bcast_S_S4x1024 main_cst_16
  let main_v46 : IVec S4x1024 1 := cmpf .olt main_v44 main_v45
  let main_c_17 : IVec S_ 1 := constantI S_ 1 1#1
  let main_v47 : IVec S_ 1 := (fun x v => Host.reduce IntOp.andi x v reducesTo_S4x1024_S_d0_1 h_S_) main_v46 main_c_17
  let main_v48 : IVec S_ 1 := andi main_v43 main_v47
  main_v48

def fn_part1 {F : FTy → Type} [FloatOps F] (main_arg4 : FVec F S4096x1024 .f32) (main_arg5 : FVec F S4096x1024 .f32) (main_arg6 : FVec F S4x1024x2048 .f32) (main_arg7 : FVec F S4x1024 .f32) (main_arg8 : FVec F S4x1024x2048 .f32) (main_arg9 : FVec F S4x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4x1024x2048 .f32 := Host.absf main_arg6
  let main_cst_10 : FVec F S_ .f32 := constant S_ .f32 0x7F800000#32
  let main_v30 : FVec F S4x1024x2048 .f32 := broadcastInDim S4x1024x2048 ![] bcast_S_S4x1024x2048 main_cst_10
  let main_v31 : IVec S4x1024x2048 1 := cmpf .olt main_v29 main_v30
  let main_c_11 : IVec S_ 1 := constantI S_ 1 1#1
  let main_v32 : IVec S_ 1 := (fun x v => Host.reduce IntOp.andi x v reducesTo_S4x1024x2048_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096x1024 .f32) (main_arg6 : FVec F S4x1024x2048 .f32) (main_arg7 : FVec F S4x1024 .f32) (main_arg8 : FVec F S4x1024x2048 .f32) (main_arg9 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_v13 main_v16
-- ==== Kernel.lean ====
abbrev S4096x1024 : Shape := ⟨2, ![4096, 1024]⟩
abbrev S4x1024x2048 : Shape := ⟨3, ![4, 1024, 2048]⟩
abbrev S4x1024 : Shape := ⟨2, ![4, 1024]⟩
abbrev S4x1024x1024 : Shape := ⟨3, ![4, 1024, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 26
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4x1024x2048, .f32⟩
  | .hbm, ⟨7, _⟩ => ⟨S4x1024, .f32⟩
  | .hbm, ⟨8, _⟩ => ⟨S4x1024x2048, .f32⟩
  | .hbm, ⟨9, _⟩ => ⟨S4x1024, .f32⟩
  | .hbm, ⟨10, _⟩ => ⟨S4x1024x1024, .f32⟩
  | .hbm, ⟨11, _⟩ => ⟨S4x1024x1024, .f32⟩
  | .hbm, ⟨12, _⟩ => ⟨S4x1024x1024, .bf16⟩
  | .hbm, ⟨13, _⟩ => ⟨S4x1024x1024, .f32⟩
  | .hbm, ⟨14, _⟩ => ⟨S4x1024x1024, .f32⟩
  | .hbm, ⟨15, _⟩ => ⟨S4x1024x1024, .bf16⟩
  | .hbm, ⟨16, _⟩ => ⟨S4x1024x1024, .f32⟩
  | .hbm, ⟨17, _⟩ => ⟨S4x1024x1024, .f32⟩
  | .hbm, ⟨18, _⟩ => ⟨S4x1024x1024, .bf16⟩
  | .hbm, ⟨19, _⟩ => ⟨S4x1024x1024, .f32⟩
  | .hbm, ⟨20, _⟩ => ⟨S4x1024x1024, .f32⟩
  | .hbm, ⟨21, _⟩ => ⟨S4x1024x1024, .bf16⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S4x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S4x1024x1024, .bf16⟩
  | .local _ .vmem, ⟨20, _⟩ => ⟨S4x1024x1024, .bf16⟩
  | .local _ .vmem, ⟨21, _⟩ => ⟨S4x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S4x1024x2048_S4x1024x1024_0_0_0 : S4x1024x2048.Slices ![0, 0, 0] S4x1024x1024
  transposes_S4x1024x1024_S4x1024x1024_0_2_1 : S4x1024x1024.Transposes [0, 2, 1] S4x1024x1024
  bitsLt_bf16_f32 : FTy.bits .bf16 < FTy.bits .f32
  slices_S4x1024x2048_S4x1024x1024_0_0_1024 : S4x1024x2048.Slices ![0, 0, 1024] S4x1024x1024
  inb_S256x1024_S256x1024_0_0 : ∀ a, (![0, 0] : Fin 2 → Nat) a + S256x1024.size a ≤ S256x1024.size a
  h_S256x1024 : 0 < S256x1024.numel
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x1024.size a ≤ S4x1024x1024.size a
  hwx0_3 : ∀ i : grid0.Coords, EltTy.bits .bf16 = 32 ∨ (Rect.block (s := S4x1024x1024) S4x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x1024.size a ≤ S4x1024x1024.size a
  hwx0_4 : ∀ i : grid0.Coords, EltTy.bits .bf16 = 32 ∨ (Rect.block (s := S4x1024x1024) S4x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S4096x1024.size a
  hwx1_1 : ∀ i : grid1.Coords, EltTy.bits .f32 = 32 ∨ (Rect.block (s := S4096x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S4096x1024.size a
  hwx1_2 : ∀ i : grid1.Coords, EltTy.bits .f32 = 32 ∨ (Rect.block (s := S4096x1024) S256x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x1024x1024.size a ≤ S4x1024x1024.size a
  hwx1_3 : ∀ i : grid1.Coords, EltTy.bits .bf16 = 32 ∨ (Rect.block (s := S4x1024x1024) S4x1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x1024x1024.size a ≤ S4x1024x1024.size a
  hwx1_4 : ∀ i : grid1.Coords, EltTy.bits .bf16 = 32 ∨ (Rect.block (s := S4x1024x1024) S4x1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x1024.size a ≤ S4x1024.size a
  hwx1_5 : ∀ i : grid1.Coords, EltTy.bits .f32 = 32 ∨ (Rect.block (s := S4x1024) S4x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S4096x1024.size a
  hwx1_6 : ∀ i : grid1.Coords, EltTy.bits .f32 = 32 ∨ (Rect.block (s := S4096x1024) S256x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1024.size a ≤ S4096x1024.size a
  hwx1_7 : ∀ i : grid1.Coords, EltTy.bits .f32 = 32 ∨ (Rect.block (s := S4096x1024) S256x1024.size (cc1_transform_7 i) (hinb1_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S4x1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S4x1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S4x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13_0) S256x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v13_1) S256x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4x1024x2048 : Shape := ⟨3, ![4, 1024, 2048]⟩
abbrev S4x1024 : Shape := ⟨2, ![4, 1024]⟩
abbrev S4096x2048 : Shape := ⟨2, ![4096, 2048]⟩
abbrev S4096x4x1024 : Shape := ⟨3, ![4096, 4, 1024]⟩
abbrev S1x4x1024 : Shape := ⟨3, ![1, 4, 1024]⟩
abbrev S4096x1x1024 : Shape := ⟨3, ![4096, 1, 1024]⟩
abbrev S_ : Shape := ⟨0, ![]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4x1024x2048, .f32⟩
  | .hbm, ⟨7, _⟩ => ⟨S4x1024, .f32⟩
  | .hbm, ⟨8, _⟩ => ⟨S4x1024x2048, .f32⟩
  | .hbm, ⟨9, _⟩ => ⟨S4x1024, .f32⟩
  | .hbm, ⟨10, _⟩ => ⟨S4096x2048, .f32⟩
  | .hbm, ⟨11, _⟩ => ⟨S4096x4x1024, .f32⟩
  | .hbm, ⟨12, _⟩ => ⟨S1x4x1024, .f32⟩
  | .hbm, ⟨13, _⟩ => ⟨S4096x4x1024, .f32⟩
  | .hbm, ⟨14, _⟩ => ⟨S4096x4x1024, .f32⟩
  | .hbm, ⟨15, _⟩ => ⟨S4096x1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x2048, .f32⟩
  | .hbm, ⟨54, _⟩ => ⟨S4096x4x1024, .f32⟩
  | .hbm, ⟨55, _⟩ => ⟨S1x4x1024, .f32⟩
  | .hbm, ⟨56, _⟩ => ⟨S4096x4x1024, .f32⟩
  | .hbm, ⟨57, _⟩ => ⟨S4096x4x1024, .f32⟩
  | .hbm, ⟨58, _⟩ => ⟨S4096x1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S4096x1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  bcast_S4x1024_S1x4x1024_1_2 : S4x1024.BroadcastsInDim S1x4x1024 (![1, 2] : Fin 2 → Fin S1x4x1024.rank)
  bcast_S1x4x1024_S4096x4x1024_0_1_2 : S1x4x1024.BroadcastsInDim S4096x4x1024 (![0, 1, 2] : Fin 3 → Fin S4096x4x1024.rank)
  slices_S4096x4x1024_S4096x1x1024_0_0_0 : S4096x4x1024.Slices ![0, 0, 0] S4096x1x1024
  shapeCasts_S4096x1x1024_S4096x1024 : S4096x1x1024.ShapeCasts S4096x1024
  bcast_S_S4096x1024 : S_.BroadcastsInDim S4096x1024 (![] : Fin 0 → Fin S4096x1024.rank)
  slices_S4096x4x1024_S4096x1x1024_0_1_0 : S4096x4x1024.Slices ![0, 1, 0] S4096x1x1024
  slices_S4096x4x1024_S4096x1x1024_0_2_0 : S4096x4x1024.Slices ![0, 2, 0] S4096x1x1024
  slices_S4096x4x1024_S4096x1x1024_0_3_0 : S4096x4x1024.Slices ![0, 3, 0] S4096x1x1024
  dot_S4096x2048_S4x1024x2048_S4096x4x1024_1_2_0_01_n_n_wf : DotDims.WF S4096x2048 S4x1024x2048 S4096x4x1024 [1] [2] [0] [0, 1] [] []

variable [Facts₀]

def dot_S4096x2048_S4x1024x2048_S4096x4x1024_1_2_0_01_n_n : DotDims S4096x2048 S4x1024x2048 S4096x4x1024 where
  lhsContracting := [1]
  rhsContracting := [2]
  lhsNonContracting := [0]
  rhsNonContracting := [0, 1]
  lhsBatch := []
  rhsBatch := []
  wf := dot_S4096x2048_S4x1024x2048_S4096x4x1024_1_2_0_01_n_n_wf

class Facts : Prop extends Facts₀ where

variable [Facts]
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.Spec.lean ====
/-
  One step of an LSTM cell over the extended reals.

  A gate's pre-activation at batch row `r` and hidden unit `j` is the inner product of the input row with the unit's
  input weights, plus the inner product of the hidden-state row with the unit's recurrent weights, plus the unit's bias.
  The weights of one gate are one `1024 × 2048` matrix whose first 1024 columns multiply the input and whose last 1024
  columns multiply the hidden state; a sum over all 2048 columns is the sum over the two halves (`sum_cols`).
  With the gates `f, i, o` squashed by the logistic function and the candidate by `tanh`, the new cell state is
  `σ(f)·c + σ(i)·tanh(g)` and the new hidden state `σ(o)·tanh(c')`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Mathlib.Algebra.BigOperators.Fin
import proofs.«109238_j23639499997827_1_alg».proof.Proof.LibDot

noncomputable section

open scoped BigOperators

namespace Cert.LstmCell

open Idealize.ShloMosaic Idealize.ShloMosaic.ValueIdx

/-! ## The cell's arithmetic at one batch row and one hidden unit -/

/-- A gate's pre-activation: input row times input weights, hidden row times recurrent weights, plus the bias. -/
def gateOf (xr hr wx wh : Fin 1024 → EReal) (b : EReal) : EReal :=
  (∑ k : Fin 1024, xr k * wx k) + (∑ k : Fin 1024, hr k * wh k) + b

/-- The new cell state from the forget, input and candidate pre-activations and the old cell state. -/
def cellOf (gf gi gc c : EReal) : EReal := Ideal.logistic gf * c + Ideal.logistic gi * Ideal.tanh gc

/-- The new hidden state from the output gate's pre-activation and the new cell state. -/
def hiddenOf (go cn : EReal) : EReal := Ideal.logistic go * Ideal.tanh cn

/-- The logistic function as a host program spells it, `1 / (1 + e^(-v))` with both ones the float literal. -/
theorem logistic_spelled (v : EReal) :
    Ideal.div (Ideal.ofBits .f32 0x3F800000#32) (Ideal.ofBits .f32 0x3F800000#32 + Ideal.exp (-v)) = Ideal.logistic v := by
  rw [Ideal.ofBits_one_f32]; rfl

/-! ## The whole arrays -/

abbrev Act : Type := (⟨2, ![4096, 1024]⟩ : Shape).Idx → EReal
abbrev Wts : Type := (⟨3, ![4, 1024, 2048]⟩ : Shape).Idx → EReal
abbrev Bias : Type := (⟨2, ![4, 1024]⟩ : Shape).Idx → EReal

/-- Column `k` of the input half of a gate's weight matrix. -/
def inCol (k : Fin 1024) : Fin 2048 := ⟨k.val, by omega⟩
/-- Column `k` of the recurrent half. -/
def recCol (k : Fin 1024) : Fin 2048 := ⟨1024 + k.val, by omega⟩

/-- A sum over the 2048 columns is the sum over the input half plus the sum over the recurrent half. -/
theorem sum_cols {M : Type} [AddCommMonoid M] (f : Fin 2048 → M) :
    ∑ k : Fin 2048, f k = (∑ k : Fin 1024, f (inCol k)) + ∑ k : Fin 1024, f (recCol k) :=
  Fin.sum_univ_add (a := 1024) (b := 1024) f

/-- Gate `g`'s pre-activation at row `r`, unit `j`, from the arrays. -/
def gate (x h : Act) (W : Wts) (b : Bias) (g : Fin 4) (r : Fin 4096) (j : Fin 1024) : EReal :=
  gateOf (fun k => x (ix2 r k)) (fun k => h (ix2 r k)) (fun k => W (ix3 g j (inCol k))) (fun k => W (ix3 g j (recCol k)))
    (b (ix2 g j))

def cellAt (x h c : Act) (W : Wts) (b : Bias) (r : Fin 4096) (j : Fin 1024) : EReal :=
  cellOf (gate x h W b 0 r j) (gate x h W b 1 r j) (gate x h W b 3 r j) (c (ix2 r j))

def hiddenAt (x h c : Act) (W : Wts) (b : Bias) (r : Fin 4096) (j : Fin 1024) : EReal :=
  hiddenOf (gate x h W b 2 r j) (cellAt x h c W b r j)

/-- The new cell state, as an array. -/
def cellNext (x h c : Act) (W : Wts) (b : Bias) : Act := fun i => cellAt x h c W b (i 0) (i 1)

/-- The new hidden state, as an array. -/
def hiddenNext (x h c : Act) (W : Wts) (b : Bias) : Act := fun i => hiddenAt x h c W b (i 0) (i 1)

/-! ## A gate computed on a block of 256 batch rows

Two matrix products into zero accumulators added, plus the bias row broadcast down the rows: at entry `(p, q)` this is
`gateOf` of row `p` of the two left operands, column `q` of the two right operands and entry `q` of the bias row. The
right operands are given as one-matrix stacks and the bias as a one-row matrix passed through a vector and back. -/

theorem gate_block_apply (d : DotDims ⟨2, ![256, 1024]⟩ ⟨2, ![1024, 1024]⟩ ⟨2, ![256, 1024]⟩)
    (h1 : d.lhsContracting = [1]) (h2 : d.rhsContracting = [0]) (h3 : d.lhsNonContracting = [0])
    (h4 : d.rhsNonContracting = [1]) (h5 : d.lhsBatch = []) (h6 : d.rhsBatch = [])
    (xb hb : FVec Ideal ⟨2, ![256, 1024]⟩ .bf16) (wx wh : FVec Ideal ⟨3, ![1, 1024, 1024]⟩ .bf16)
    (bs : FVec Ideal ⟨2, ![1, 1024]⟩ .f32)
    (hs : (⟨3, ![1, 1024, 1024]⟩ : Shape).ShapeCasts ⟨2, ![1024, 1024]⟩)
    (hc1 : (⟨2, ![1, 1024]⟩ : Shape).ShapeCasts ⟨1, ![1024]⟩) (hc2 : (⟨1, ![1024]⟩ : Shape).ShapeCasts ⟨2, ![1, 1024]⟩)
    (hbc : (⟨2, ![1, 1024]⟩ : Shape).Broadcasts ⟨2, ![256, 1024]⟩) (p : Fin 256) (q : Fin 1024) :
    addf (addf (matmul d none xb (shapeCast ⟨2, ![1024, 1024]⟩ wx hs) (constant ⟨2, ![256, 1024]⟩ .f32 0x00000000#32))
        (matmul d none hb (shapeCast ⟨2, ![1024, 1024]⟩ wh hs) (constant ⟨2, ![256, 1024]⟩ .f32 0x00000000#32)))
      (broadcastTo ⟨2, ![256, 1024]⟩ (shapeCast ⟨2, ![1, 1024]⟩ (shapeCast ⟨1, ![1024]⟩ bs hc1) hc2) hbc) (ix2 p q)
    = gateOf (fun k => xb (ix2 p k)) (fun k => hb (ix2 p k)) (fun k => wx (ix3 (0 : Fin 1) k q))
        (fun k => wh (ix3 (0 : Fin 1) k q)) (bs (ix2 (0 : Fin 1) q)) := by
  rw [addf_apply, addf_apply, Cert.LibDot.matmul_zero_apply d h1 h2 h3 h4 h5 h6,
    Cert.LibDot.matmul_zero_apply d h1 h2 h3 h4 h5 h6, broadcastTo_1b_ab_apply, shapeCast_a_1a_apply,
    shapeCast_1a_a_apply]
  simp only [shapeCast_1ab_ab_apply]
  rfl

end Cert.LstmCell

end
-- ==== Proof.RefSpec.lean ====
/-
  The reference's four results are the LSTM step of `Spec.lean`.

  The reference joins the input and the hidden state along the feature axis, contracts the joined row with each gate's
  `1024 × 2048` weight matrix and adds the bias. Read at batch row `r`, gate `g`, unit `j` this is a sum over 2048
  columns, whose first 1024 terms read the input and whose last 1024 read the hidden state: the gate's pre-activation.
  Each gate is then one slice of that rank-3 array; the logistic function is spelled `1 / (1 + exp (-v))`.
  The backward direction is the same text over the other five arguments.
-/
import proofs.«109238_j23639499997827_1_alg».proof.Proof.Gen.ReferenceIdeal.Read
import proofs.«109238_j23639499997827_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx
open Cert.LstmCell

variable (x h c : (⟨S4096x1024, .f32⟩ : BufTy).Contents (Elt Ideal)) (W : (⟨S4x1024x2048, .f32⟩ : BufTy).Contents (Elt Ideal))
  (b : (⟨S4x1024, .f32⟩ : BufTy).Contents (Elt Ideal))

/-! ## The joined row -/

/-- A column of the input half of the joined row is the input's. -/
theorem joined_in (r : Fin 4096) (k : Fin 1024) : val_main_v0 (F := Ideal) x h (ix2 r (inCol k)) = x (ix2 r k) := by
  unfold val_main_v0
  exact concatenate_pair_apply_left (1 : Fin 2) x h _ (ix2 r (inCol k)) rfl (ix2 r k)
    (fun a => match a with | ⟨0, _⟩ => rfl | ⟨1, _⟩ => rfl)

/-- A column of the recurrent half is the hidden state's. -/
theorem joined_rec (r : Fin 4096) (k : Fin 1024) : val_main_v0 (F := Ideal) x h (ix2 r (recCol k)) = h (ix2 r k) := by
  unfold val_main_v0
  exact concatenate_pair_apply_right (1 : Fin 2) x h _ (ix2 r (recCol k)) rfl rfl (ix2 r k)
    (fun a ha => match a with | ⟨0, _⟩ => rfl | ⟨1, _⟩ => absurd rfl ha)
    (by show k.val + 1024 = 1024 + k.val; omega)

/-! ## The pre-activations -/

/-- The contraction plus the bias, at row `r`, gate `g`, unit `j`. -/
theorem preact_apply (r : Fin 4096) (g : Fin 4) (j : Fin 1024) :
    val_main_v4 (F := Ideal) x h W b (ix3 r g j) = gate x h W b g r j := by
  have el : ∀ k : Fin 2048, lidx_main_v1 (ix3 r g j) k = ix2 r k := fun k => funext fun a =>
    match a with | ⟨0, _⟩ => rfl | ⟨1, _⟩ => rfl
  have er : ∀ k : Fin 2048, ridx_main_v1 (ix3 r g j) k = ix3 g j k := fun k => funext fun a =>
    match a with | ⟨0, _⟩ => rfl | ⟨1, _⟩ => rfl | ⟨2, _⟩ => rfl
  have eb : idx_main_v2 (idx_main_v3 (ix3 r g j)) = ix2 g j := funext fun a =>
    match a with | ⟨0, _⟩ => rfl | ⟨1, _⟩ => rfl
  rw [val_main_v4_apply, val_main_v1_apply, val_main_v3_apply, val_main_v2_apply, sum_cols]
  simp only [el, er, eb, joined_in, joined_rec]
  rfl

/-- The quotient and remainder of a row-major position by the row length. -/
theorem rowmajor_div (r : Fin 4096) (j : Fin 1024) : (r.val * 1024 + j.val) / 1024 = r.val := by
  have := j.isLt; omega
theorem rowmajor_mod (r : Fin 4096) (j : Fin 1024) : (r.val * 1024 + j.val) % 1024 = j.val := by
  have := j.isLt; omega

/-- The forget gate's slice. -/
theorem forget_apply (r : Fin 4096) (j : Fin 1024) : val_main_v6 (F := Ideal) x h W b (ix2 r j) = gate x h W b 0 r j := by
  have e : idx_main_v5 (idx_main_v6 (ix2 r j)) = ix3 r (0 : Fin 4) j := funext fun a => Fin.ext (by
    match a with
    | ⟨0, _⟩ => exact rowmajor_div r j
    | ⟨1, _⟩ => rfl
    | ⟨2, _⟩ => exact rowmajor_mod r j)
  rw [val_main_v6_apply, val_main_v5_apply, e, preact_apply]

/-- The input gate's slice. -/
theorem input_apply (r : Fin 4096) (j : Fin 1024) : val_main_v14 (F := Ideal) x h W b (ix2 r j) = gate x h W b 1 r j := by
  have e : idx_main_v13 (idx_main_v14 (ix2 r j)) = ix3 r (1 : Fin 4) j := funext fun a => Fin.ext (by
    match a with
    | ⟨0, _⟩ => exact rowmajor_div r j
    | ⟨1, _⟩ => rfl
    | ⟨2, _⟩ => exact rowmajor_mod r j)
  rw [val_main_v14_apply, val_main_v13_apply, e, preact_apply]

/-- The output gate's slice. -/
theorem output_apply (r : Fin 4096) (j : Fin 1024) : val_main_v22 (F := Ideal) x h W b (ix2 r j) = gate x h W b 2 r j := by
  have e : idx_main_v21 (idx_main_v22 (ix2 r j)) = ix3 r (2 : Fin 4) j := funext fun a => Fin.ext (by
    match a with
    | ⟨0, _⟩ => exact rowmajor_div r j
    | ⟨1, _⟩ => rfl
    | ⟨2, _⟩ => exact rowmajor_mod r j)
  rw [val_main_v22_apply, val_main_v21_apply, e, preact_apply]

/-- The candidate's slice. -/
theorem candidate_apply (r : Fin 4096) (j : Fin 1024) : val_main_v30 (F := Ideal) x h W b (ix2 r j) = gate x h W b 3 r j := by
  have e : idx_main_v29 (idx_main_v30 (ix2 r j)) = ix3 r (3 : Fin 4) j := funext fun a => Fin.ext (by
    match a with
    | ⟨0, _⟩ => exact rowmajor_div r j
    | ⟨1, _⟩ => rfl
    | ⟨2, _⟩ => exact rowmajor_mod r j)
  rw [val_main_v30_apply, val_main_v29_apply, e, preact_apply]

/-! ## The squashed gates -/

theorem forget_sig (r : Fin 4096) (j : Fin 1024) :
    val_main_v12 (F := Ideal) x h W b (ix2 r j) = Ideal.logistic (gate x h W b 0 r j) := by
  rw [val_main_v12_apply, val_main_v11_apply, val_main_cst_0_apply, val_main_v10_apply, val_main_v9_apply, val_main_cst_apply,
    val_main_v8_apply, val_main_v7_apply, forget_apply]
  exact logistic_spelled _

theorem input_sig (r : Fin 4096) (j : Fin 1024) :
    val_main_v20 (F := Ideal) x h W b (ix2 r j) = Ideal.logistic (gate x h W b 1 r j) := by
  rw [val_main_v20_apply, val_main_v19_apply, val_main_cst_2_apply, val_main_v18_apply, val_main_v17_apply, val_main_cst_1_apply,
    val_main_v16_apply, val_main_v15_apply, input_apply]
  exact logistic_spelled _

theorem output_sig (r : Fin 4096) (j : Fin 1024) :
    val_main_v28 (F := Ideal) x h W b (ix2 r j) = Ideal.logistic (gate x h W b 2 r j) := by
  rw [val_main_v28_apply, val_main_v27_apply, val_main_cst_4_apply, val_main_v26_apply, val_main_v25_apply, val_main_cst_3_apply,
    val_main_v24_apply, val_main_v23_apply, output_apply]
  exact logistic_spelled _

/-! ## The results -/

/-- The reference's new cell state (forward operands' text). -/
theorem cell_eq : val_main_v34 (F := Ideal) x h c W b = cellNext x h c W b := by
  funext i
  obtain ⟨r, j, rfl⟩ : ∃ (r : Fin 4096) (j : Fin 1024), i = ix2 r j := ⟨i 0, i 1, eq_ix2 i⟩
  rw [val_main_v34_apply, val_main_v32_apply, val_main_v33_apply, forget_sig, input_sig, val_main_v31_apply, candidate_apply]
  rfl

/-- The reference's new hidden state (forward operands' text). -/
theorem hidden_eq : val_main_v36 (F := Ideal) x h c W b = hiddenNext x h c W b := by
  funext i
  obtain ⟨r, j, rfl⟩ : ∃ (r : Fin 4096) (j : Fin 1024), i = ix2 r j := ⟨i 0, i 1, eq_ix2 i⟩
  rw [val_main_v36_apply, output_sig, val_main_v35_apply, cell_eq]
  rfl

/-- The backward direction's text is the forward one's over its own operands. -/
theorem cell_back_eq : val_main_v71 (F := Ideal) x h c W b = cellNext x h c W b :=
  ((val_main_v71_eq x h c W b).symm.trans (val_main_v34_eq x h c W b)).trans (cell_eq x h c W b)

theorem hidden_back_eq : val_main_v73 (F := Ideal) x h c W b = hiddenNext x h c W b :=
  ((val_main_v73_eq x h c W b).symm.trans (val_main_v36_eq x h c W b)).trans (hidden_eq x h c W b)

end Cert.ReferenceIdeal.RefValue

end
-- ==== Proof.KernelBlock.lean ====
/-
  What the kernel body leaves in its two output blocks, entry by entry.

  The body works on a block of 256 batch rows. For each of the four gates it multiplies the input block by the gate's
  input weights, the hidden block by the gate's recurrent weights, adds the two products and the gate's bias row: the
  gate's pre-activation on the block (`blockGate`). The new cell block is `σ(f)·c + σ(i)·tanh(g)` and the new hidden
  block `σ(o)·tanh(c')`, entry by entry. The second pallas_call runs the same body, so its blocks are the same functions.
-/
import proofs.«109238_j23639499997827_1_alg».proof.Proof.Gen.KernelIdeal.Frame
import proofs.«109238_j23639499997827_1_alg».proof.Proof.Spec
import Idealize.ShloMosaic.Lib.Pipeline.Value
import Idealize.ShloMosaic.Lib.ValueIdx

noncomputable section

open scoped BigOperators

namespace Cert.KernelIdeal.Block

open Cert.KernelIdeal Cert.KernelIdeal.Gen Idealize.ShloMosaic Idealize.ShloMosaic.TcCoe Idealize.ShloMosaic.ValueIdx
open Cert.LstmCell

theorem zeros2 : (![0, 0] : Fin 2 → Nat) = fun _ => 0 := funext fun a => by fin_cases a <;> rfl

/-! ## One gate's weights and bias, read out of the stacked operands -/

/-- Gate `g`'s matrix of a stack of four, loaded as a one-matrix stack, at row `k`, column `q`. -/
theorem stack_apply (x : Vec Ideal S4x1024x1024 .bf16) (g : Nat) (hg : g < 4)
    (inb : ∀ a, (![g, 0, 0] : Fin 3 → Nat) a + S1x1024x1024.size a ≤ S4x1024x1024.size a) (k q : Fin 1024) :
    View.ld x (Rect.unit (s := S4x1024x1024) ![g, 0, 0] S1x1024x1024.size inb) (ix3 (0 : Fin 1) k q)
      = x (ix3 (⟨g, hg⟩ : Fin 4) k q) := by
  refine congrArg x (funext fun a => Fin.ext ?_)
  match a with
  | ⟨0, _⟩ => show g + 1 * 0 = g; omega
  | ⟨1, _⟩ => show 0 + 1 * k.val = k.val; omega
  | ⟨2, _⟩ => show 0 + 1 * q.val = q.val; omega

/-- Gate `g`'s row of the four bias rows, loaded as a one-row matrix, at entry `q`. -/
theorem biasrow_apply (x : Vec Ideal S4x1024 .f32) (g : Nat) (hg : g < 4)
    (inb : ∀ a, (![g, 0] : Fin 2 → Nat) a + S1x1024.size a ≤ S4x1024.size a) (q : Fin 1024) :
    View.ld x (Rect.unit (s := S4x1024) ![g, 0] S1x1024.size inb) (ix2 (0 : Fin 1) q) = x (ix2 (⟨g, hg⟩ : Fin 4) q) := by
  refine congrArg x (funext fun a => Fin.ext ?_)
  match a with
  | ⟨0, _⟩ => show g + 1 * 0 = g; omega
  | ⟨1, _⟩ => show 0 + 1 * q.val = q.val; omega

/-! ## The payloads at an entry -/

/-- Gate `g`'s pre-activation on a block, at row `p` of the block and unit `q`. -/
def blockGate (x0 x1 : Vec Ideal S256x1024 .f32) (x3 x4 : Vec Ideal S4x1024x1024 .bf16) (x5 : Vec Ideal S4x1024 .f32)
    (g : Fin 4) (p : Fin 256) (q : Fin 1024) : EReal :=
  gateOf (fun k => x0 (ix2 p k)) (fun k => x1 (ix2 p k)) (fun k => x3 (ix3 g k q)) (fun k => x4 (ix3 g k q)) (x5 (ix2 g q))

/-- The forget gate's payload. -/
theorem forget_pay (v0 v2 : Vec Ideal S256x1024 .f32) (v4 v6 : Vec Ideal S1x1024x1024 .bf16) (v11 : Vec Ideal S1x1024 .f32)
    (p : Fin 256) (q : Fin 1024) :
    k0_pay5 v0 v2 v4 v6 v11 (ix2 p q)
      = gateOf (fun k => v0 (ix2 p k)) (fun k => v2 (ix2 p k)) (fun k => v4 (ix3 (0 : Fin 1) k q))
          (fun k => v6 (ix3 (0 : Fin 1) k q)) (v11 (ix2 (0 : Fin 1) q)) :=
  gate_block_apply dot_S256x1024_S1024x1024_S256x1024_1_0_0_1_n_n rfl rfl rfl rfl rfl rfl _ _ v4 v6 v11 _ _ _ _ p q

/-- The input gate's payload. -/
theorem input_pay (v0 v2 : Vec Ideal S256x1024 .f32) (v16 v18 : Vec Ideal S1x1024x1024 .bf16) (v23 : Vec Ideal S1x1024 .f32)
    (p : Fin 256) (q : Fin 1024) :
    k0_pay6 v0 v2 v16 v18 v23 (ix2 p q)
      = gateOf (fun k => v0 (ix2 p k)) (fun k => v2 (ix2 p k)) (fun k => v16 (ix3 (0 : Fin 1) k q))
          (fun k => v18 (ix3 (0 : Fin 1) k q)) (v23 (ix2 (0 : Fin 1) q)) :=
  gate_block_apply dot_S256x1024_S1024x1024_S256x1024_1_0_0_1_n_n rfl rfl rfl rfl rfl rfl _ _ v16 v18 v23 _ _ _ _ p q

/-- The new cell block's payload: the candidate's pre-activation is computed inside it. -/
theorem cell_pay (v1 v3 : FVec Ideal S256x1024 .bf16) (v15 v27 : FVec Ideal S256x1024 .f32)
    (v40 v42 : Vec Ideal S1x1024x1024 .bf16) (v47 : Vec Ideal S1x1024 .f32) (v56 : Vec Ideal S256x1024 .f32)
    (p : Fin 256) (q : Fin 1024) :
    k0_pay1 v1 v3 v15 v27 v40 v42 v47 v56 (ix2 p q)
      = cellOf (v15 (ix2 p q)) (v27 (ix2 p q))
          (gateOf (fun k => v1 (ix2 p k)) (fun k => v3 (ix2 p k)) (fun k => v40 (ix3 (0 : Fin 1) k q))
            (fun k => v42 (ix3 (0 : Fin 1) k q)) (v47 (ix2 (0 : Fin 1) q)))
          (v56 (ix2 p q)) :=
  congrArg (fun g => cellOf (v15 (ix2 p q)) (v27 (ix2 p q)) g (v56 (ix2 p q)))
    (gate_block_apply dot_S256x1024_S1024x1024_S256x1024_1_0_0_1_n_n rfl rfl rfl rfl rfl rfl v1 v3 v40 v42 v47 _ _ _ _ p q)

/-- The new hidden block's payload: the output gate's pre-activation is computed inside it, over the new cell block. -/
theorem hidden_pay (v1 v3 : FVec Ideal S256x1024 .bf16) (v15 v27 : FVec Ideal S256x1024 .f32)
    (v28 v30 : Vec Ideal S1x1024x1024 .bf16) (v35 : Vec Ideal S1x1024 .f32)
    (v40 v42 : Vec Ideal S1x1024x1024 .bf16) (v47 : Vec Ideal S1x1024 .f32) (v56 : Vec Ideal S256x1024 .f32)
    (p : Fin 256) (q : Fin 1024) :
    k0_pay2 v1 v3 v15 v27 (k0_pay7 v28) v30 v35 v40 v42 v47 v56 (ix2 p q)
      = hiddenOf
          (gateOf (fun k => v1 (ix2 p k)) (fun k => v3 (ix2 p k)) (fun k => v28 (ix3 (0 : Fin 1) k q))
            (fun k => v30 (ix3 (0 : Fin 1) k q)) (v35 (ix2 (0 : Fin 1) q)))
          (k0_pay1 v1 v3 v15 v27 v40 v42 v47 v56 (ix2 p q)) :=
  congrArg (fun g => hiddenOf g (k0_pay1 v1 v3 v15 v27 v40 v42 v47 v56 (ix2 p q)))
    (gate_block_apply dot_S256x1024_S1024x1024_S256x1024_1_0_0_1_n_n rfl rfl rfl rfl rfl rfl v1 v3 v28 v30 v35 _ _ _ _ p q)

/-! ## The output blocks at an entry -/

/-- The new cell block. -/
theorem cell_block (x0 x1 x2 : Vec Ideal S256x1024 .f32) (x3 x4 : Vec Ideal S4x1024x1024 .bf16) (x5 : Vec Ideal S4x1024 .f32)
    (p : Fin 256) (q : Fin 1024) :
    out0_7 x0 x1 x2 x3 x4 x5 (ix2 p q)
      = cellOf (blockGate x0 x1 x3 x4 x5 0 p q) (blockGate x0 x1 x3 x4 x5 1 p q) (blockGate x0 x1 x3 x4 x5 3 p q) (x2 (ix2 p q)) := by
  unfold out0_7
  rw [View.canon_unit_zero zeros2]
  simp only [View.ld_unit_zero (S := S256x1024) zeros2]
  rw [cell_pay, forget_pay, input_pay]
  simp only [stack_apply x3 0 (by omega), stack_apply x4 0 (by omega), stack_apply x3 1 (by omega), stack_apply x4 1 (by omega),
    stack_apply x3 3 (by omega), stack_apply x4 3 (by omega), biasrow_apply x5 0 (by omega), biasrow_apply x5 1 (by omega),
    biasrow_apply x5 3 (by omega)]
  rfl

/-- The new hidden block. -/
theorem hidden_block (x0 x1 x2 : Vec Ideal S256x1024 .f32) (x3 x4 : Vec Ideal S4x1024x1024 .bf16) (x5 : Vec Ideal S4x1024 .f32)
    (p : Fin 256) (q : Fin 1024) :
    out0_6 x0 x1 x2 x3 x4 x5 (ix2 p q)
      = hiddenOf (blockGate x0 x1 x3 x4 x5 2 p q) (out0_7 x0 x1 x2 x3 x4 x5 (ix2 p q)) := by
  unfold out0_6 out0_7
  rw [View.canon_unit_zero zeros2, View.canon_unit_zero zeros2]
  simp only [View.ld_unit_zero (S := S256x1024) zeros2]
  rw [hidden_pay]
  simp only [stack_apply x3 2 (by omega), stack_apply x4 2 (by omega), biasrow_apply x5 2 (by omega)]
  rfl

/-! ## The second call's blocks: the same body, so the same functions of its blocks -/

theorem cell_same (x0 x1 x2 : Vec Ideal S256x1024 .f32) (x3 x4 : Vec Ideal S4x1024x1024 .bf16) (x5 : Vec Ideal S4x1024 .f32) :
    out1_7 x0 x1 x2 x3 x4 x5 = out0_7 x0 x1 x2 x3 x4 x5 := rfl

theorem hidden_same (x0 x1 x2 : Vec Ideal S256x1024 .f32) (x3 x4 : Vec Ideal S4x1024x1024 .bf16) (x5 : Vec Ideal S4x1024 .f32) :
    out1_6 x0 x1 x2 x3 x4 x5 = out0_6 x0 x1 x2 x3 x4 x5 := rfl

/-- The second call's new cell block. -/
theorem cell_block1 (x0 x1 x2 : Vec Ideal S256x1024 .f32) (x3 x4 : Vec Ideal S4x1024x1024 .bf16) (x5 : Vec Ideal S4x1024 .f32)
    (p : Fin 256) (q : Fin 1024) :
    out1_7 x0 x1 x2 x3 x4 x5 (ix2 p q)
      = cellOf (blockGate x0 x1 x3 x4 x5 0 p q) (blockGate x0 x1 x3 x4 x5 1 p q) (blockGate x0 x1 x3 x4 x5 3 p q) (x2 (ix2 p q)) := by
  rw [cell_same]; exact cell_block x0 x1 x2 x3 x4 x5 p q

/-- The second call's new hidden block. -/
theorem hidden_block1 (x0 x1 x2 : Vec Ideal S256x1024 .f32) (x3 x4 : Vec Ideal S4x1024x1024 .bf16) (x5 : Vec Ideal S4x1024 .f32)
    (p : Fin 256) (q : Fin 1024) :
    out1_6 x0 x1 x2 x3 x4 x5 (ix2 p q)
      = hiddenOf (blockGate x0 x1 x3 x4 x5 2 p q) (out1_7 x0 x1 x2 x3 x4 x5 (ix2 p q)) := by
  rw [hidden_same, cell_same]; exact hidden_block x0 x1 x2 x3 x4 x5 p q

end Cert.KernelIdeal.Block

end
-- ==== Proof.Region0.lean ====
/-
  The first pallas_call's two result arrays, as functions of the arrays the call finds on entry.

  The grid has 16 points; point `t` works on batch rows `256 t … 256 t + 255`. The input, hidden-state and cell-state
  windows and the two result windows move with the point (block `(t, 0)`); the two weight stacks and the bias rows are
  one block, the same at every point. So row `p` of a block at point `t` is row `256 t + p` of its array, and what the
  point writes back to a result window is rows `256 t …` of the LSTM step of the whole arrays. The 16 blocks tile the
  4096 rows, so after the call each result array is the LSTM step of `Spec.lean`.

  The weight stacks the call finds are the host's rearrangement of the stacked gate weights: entry `(g, k, q)` of the
  input stack is column `k` of unit `q`'s row of gate `g`, entry `(g, k, q)` of the recurrent stack is column `1024 + k`.
-/
import proofs.«109238_j23639499997827_1_alg».proof.Proof.Gen.KernelIdeal.Frame
import proofs.«109238_j23639499997827_1_alg».proof.Proof.KernelBlock
import proofs.«109238_j23639499997827_1_alg».proof.Proof.Spec
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Cert.KernelIdeal.Block Idealize.ShloMosaic Idealize.ShloMosaic.TcCoe
open Idealize.ShloMosaic.ValueIdx Idealize.SL.Sem
open Idealize.ShloMosaic.Pipeline (Dat)
open Cert.LstmCell

variable (V : (c : Dev nD) → (b : Ref sig .tc) → Buf (Elt Ideal) ((c : Thread nD τ).loc b))

/-- What the call's six operand arrays hold on entry, in terms of the step's operands. -/
structure Holds (c : Dev nD) (X H C : Act) (Wt : Wts) (B : Bias) : Prop where
  hx : (V c main_arg0 : S4096x1024.Idx → EReal) = X
  hh : (V c main_arg2 : S4096x1024.Idx → EReal) = H
  hc : (V c main_arg3 : S4096x1024.Idx → EReal) = C
  hwx : ∀ (g : Fin 4) (k q : Fin 1024), (V c main_v2 : S4x1024x1024.Idx → EReal) (ix3 g k q) = Wt (ix3 g q (inCol k))
  hwh : ∀ (g : Fin 4) (k q : Fin 1024), (V c main_v5 : S4x1024x1024.Idx → EReal) (ix3 g k q) = Wt (ix3 g q (recCol k))
  hb : (V c main_arg7 : S4x1024.Idx → EReal) = B

/-! ## The printed index maps, decided over the grid -/

theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 16 := by
  exact lt_of_lt_of_eq t.isLt (N_0 : cfg0.N = 16)

/-! ## The input blocks at a point, by their literal types -/

abbrev xblk (c : Dev nD) (t : Fin cfg0.N) : Vec Ideal S256x1024 .f32 := iblk0 V c 0 t
abbrev hblk (c : Dev nD) (t : Fin cfg0.N) : Vec Ideal S256x1024 .f32 := iblk0 V c 1 t
abbrev cblk (c : Dev nD) (t : Fin cfg0.N) : Vec Ideal S256x1024 .f32 := iblk0 V c 2 t
abbrev wxblk (c : Dev nD) (t : Fin cfg0.N) : Vec Ideal S4x1024x1024 .bf16 := iblk0 V c 3 t
abbrev whblk (c : Dev nD) (t : Fin cfg0.N) : Vec Ideal S4x1024x1024 .bf16 := iblk0 V c 4 t
abbrev bblk (c : Dev nD) (t : Fin cfg0.N) : Vec Ideal S4x1024 .f32 := iblk0 V c 5 t

/-- Row `p` of the input block at point `t` is row `256 t + p` of the input. -/
theorem xblk_apply (c : Dev nD) (t : Fin cfg0.N) (p : Fin 256) (k : Fin 1024) (r : Fin 4096) (hr : r.val = 256 * t.val + p.val) :
    xblk V c t (ix2 p k) = (V c main_arg0 : S4096x1024.Idx → EReal) (ix2 r k) := by
  obtain ⟨e0, e1, -⟩ := index_facts t
  show (V c main_arg0 : S4096x1024.Idx → EReal) (((cfg0.win 0).blk t).view.emb (ix2 p k)) = _
  refine congrArg (V c main_arg0 : S4096x1024.Idx → EReal) (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- The same for the hidden state's block. -/
theorem hblk_apply (c : Dev nD) (t : Fin cfg0.N) (p : Fin 256) (k : Fin 1024) (r : Fin 4096) (hr : r.val = 256 * t.val + p.val) :
    hblk V c t (ix2 p k) = (V c main_arg2 : S4096x1024.Idx → EReal) (ix2 r k) := by
  obtain ⟨-, -, e0, e1, -⟩ := index_facts t
  show (V c main_arg2 : S4096x1024.Idx → EReal) (((cfg0.win 1).blk t).view.emb (ix2 p k)) = _
  refine congrArg (V c main_arg2 : S4096x1024.Idx → EReal) (funext fun a => Fin.ext ?_)
  match a with
  | ⟨0, _⟩ => show win0_1.index t (0 : Fin 2) * 256 + 1 * p.val = r.val; omega
  | ⟨1, _⟩ => show win0_1.index t (1 : Fin 2) * 1024 + 1 * k.val = k.val; omega

/-- The same for the cell state's block. -/
theorem cblk_apply (c : Dev nD) (t : Fin cfg0.N) (p : Fin 256) (k : Fin 1024) (r : Fin 4096) (hr : r.val = 256 * t.val + p.val) :
    cblk V c t (ix2 p k) = (V c main_arg3 : S4096x1024.Idx → EReal) (ix2 r k) := by
  obtain ⟨-, -, -, -, e0, e1, -⟩ := index_facts t
  show (V c main_arg3 : S4096x1024.Idx → EReal) (((cfg0.win 2).blk t).view.emb (ix2 p k)) = _
  refine congrArg (V c main_arg3 : S4096x1024.Idx → EReal) (funext fun a => Fin.ext ?_)
  match a with
  | ⟨0, _⟩ => show win0_2.index t (0 : Fin 2) * 256 + 1 * p.val = r.val; omega
  | ⟨1, _⟩ => show win0_2.index t (1 : Fin 2) * 1024 + 1 * k.val = k.val; omega

/-- The input weights' one block is the whole stack. -/
theorem wxblk_apply (c : Dev nD) (t : Fin cfg0.N) (g : Fin 4) (k q : Fin 1024) :
    wxblk V c t (ix3 g k q) = (V c main_v2 : S4x1024x1024.Idx → EReal) (ix3 g k q) := by
  obtain ⟨-, -, -, -, -, -, e0, e1, e2, -⟩ := index_facts t
  show (V c main_v2 : S4x1024x1024.Idx → EReal) (((cfg0.win 3).blk t).view.emb (ix3 g k q)) = _
  refine congrArg (V c main_v2 : S4x1024x1024.Idx → EReal) (funext fun a => Fin.ext ?_)
  match a with
  | ⟨0, _⟩ => show win0_3.index t (0 : Fin 3) * 4 + 1 * g.val = g.val; omega
  | ⟨1, _⟩ => show win0_3.index t (1 : Fin 3) * 1024 + 1 * k.val = k.val; omega
  | ⟨2, _⟩ => show win0_3.index t (2 : Fin 3) * 1024 + 1 * q.val = q.val; omega

/-- The recurrent weights' one block is the whole stack. -/
theorem whblk_apply (c : Dev nD) (t : Fin cfg0.N) (g : Fin 4) (k q : Fin 1024) :
    whblk V c t (ix3 g k q) = (V c main_v5 : S4x1024x1024.Idx → EReal) (ix3 g k q) := by
  obtain ⟨-, -, -, -, -, -, -, -, -, e0, e1, e2, -⟩ := index_facts t
  show (V c main_v5 : S4x1024x1024.Idx → EReal) (((cfg0.win 4).blk t).view.emb (ix3 g k q)) = _
  refine congrArg (V c main_v5 : S4x1024x1024.Idx → EReal) (funext fun a => Fin.ext ?_)
  match a with
  | ⟨0, _⟩ => show win0_4.index t (0 : Fin 3) * 4 + 1 * g.val = g.val; omega
  | ⟨1, _⟩ => show win0_4.index t (1 : Fin 3) * 1024 + 1 * k.val = k.val; omega
  | ⟨2, _⟩ => show win0_4.index t (2 : Fin 3) * 1024 + 1 * q.val = q.val; omega

/-- The bias rows' one block is all four rows. -/
theorem bblk_apply (c : Dev nD) (t : Fin cfg0.N) (g : Fin 4) (q : Fin 1024) :
    bblk V c t (ix2 g q) = (V c main_arg7 : S4x1024.Idx → EReal) (ix2 g q) := by
  obtain ⟨-, -, -, -, -, -, -, -, -, -, -, -, e0, e1, -⟩ := index_facts t
  show (V c main_arg7 : S4x1024.Idx → EReal) (((cfg0.win 5).blk t).view.emb (ix2 g q)) = _
  refine congrArg (V c main_arg7 : S4x1024.Idx → EReal) (funext fun a => Fin.ext ?_)
  match a with
  | ⟨0, _⟩ => show win0_5.index t (0 : Fin 2) * 4 + 1 * g.val = g.val; omega
  | ⟨1, _⟩ => show win0_5.index t (1 : Fin 2) * 1024 + 1 * q.val = q.val; omega

/-! ## The step on a block is the step on the arrays, at the block's rows -/

variable {V}

/-- A gate's pre-activation on the blocks at point `t`, row `p`, is the gate's pre-activation at row `256 t + p`. -/
theorem gate_at_point {c : Dev nD} {X H C : Act} {Wt : Wts} {B : Bias} (hV : Holds V c X H C Wt B) (t : Fin cfg0.N)
    (g : Fin 4) (p : Fin 256) (q : Fin 1024) (r : Fin 4096) (hr : r.val = 256 * t.val + p.val) :
    blockGate (xblk V c t) (hblk V c t) (wxblk V c t) (whblk V c t) (bblk V c t) g p q = gate X H Wt B g r q := by
  unfold blockGate gate
  simp only [xblk_apply V c t p _ r hr, hblk_apply V c t p _ r hr, wxblk_apply, whblk_apply, bblk_apply, hV.hx, hV.hh, hV.hwx,
    hV.hwh, hV.hb]

/-- The new cell block at point `t`, entry `(p, q)`. -/
theorem cell_at_point {c : Dev nD} {X H C : Act} {Wt : Wts} {B : Bias} (hV : Holds V c X H C Wt B) (t : Fin cfg0.N)
    (p : Fin 256) (q : Fin 1024) (r : Fin 4096) (hr : r.val = 256 * t.val + p.val) :
    out0_7 (xblk V c t) (hblk V c t) (cblk V c t) (wxblk V c t) (whblk V c t) (bblk V c t) (ix2 p q) = cellAt X H C Wt B r q := by
  rw [cell_block, gate_at_point hV t 0 p q r hr, gate_at_point hV t 1 p q r hr, gate_at_point hV t 3 p q r hr,
    cblk_apply V c t p q r hr, hV.hc]
  rfl

/-- The new hidden block at point `t`, entry `(p, q)`. -/
theorem hidden_at_point {c : Dev nD} {X H C : Act} {Wt : Wts} {B : Bias} (hV : Holds V c X H C Wt B) (t : Fin cfg0.N)
    (p : Fin 256) (q : Fin 1024) (r : Fin 4096) (hr : r.val = 256 * t.val + p.val) :
    out0_6 (xblk V c t) (hblk V c t) (cblk V c t) (wxblk V c t) (whblk V c t) (bblk V c t) (ix2 p q) = hiddenAt X H C Wt B r q := by
  rw [hidden_block, gate_at_point hV t 2 p q r hr, cell_at_point hV t p q r hr]
  rfl

/-! ## What a point writes back -/

/-- Row `256 t + p` of the batch. -/
def rowAt (t : Fin cfg0.N) (p : Fin 256) : Fin 4096 := ⟨256 * t.val + p.val, by have := point_lt t; have := p.isLt; omega⟩

/-- Entry `(p, q)` of the cell window's block at point `t` sits at row `256 t + p`, column `q` of its array. -/
theorem cell_emb (t : Fin cfg0.N) (p : Fin 256) (q : Fin 1024) :
    ((cfg0.win 7).blk t).view.emb (ix2 p q) = (ix2 (rowAt t p) q : S4096x1024.Idx) := by
  obtain ⟨-, -, -, -, -, -, -, -, -, -, -, -, -, -, -, -, e0, e1⟩ := index_facts t
  refine funext fun a => Fin.ext ?_
  match a with
  | ⟨0, _⟩ => show win0_7.index t (0 : Fin 2) * 256 + 1 * p.val = 256 * t.val + p.val; omega
  | ⟨1, _⟩ => show win0_7.index t (1 : Fin 2) * 1024 + 1 * q.val = q.val; omega

/-- The same for the hidden window's block. -/
theorem hidden_emb (t : Fin cfg0.N) (p : Fin 256) (q : Fin 1024) :
    ((cfg0.win 6).blk t).view.emb (ix2 p q) = (ix2 (rowAt t p) q : S4096x1024.Idx) := by
  obtain ⟨-, -, -, -, -, -, -, -, -, -, -, -, -, -, e0, e1, -⟩ := index_facts t
  refine funext fun a => Fin.ext ?_
  match a with
  | ⟨0, _⟩ => show win0_6.index t (0 : Fin 2) * 256 + 1 * p.val = 256 * t.val + p.val; omega
  | ⟨1, _⟩ => show win0_6.index t (1 : Fin 2) * 1024 + 1 * q.val = q.val; omega

/-- Point `t` writes back its rows of the new cell state. -/
theorem flushed_cell {c : Dev nD} {X H C : Act} {Wt : Wts} {B : Bias} (hV : Holds V c X H C Wt B) (t : Fin cfg0.N) :
    (dat0 V c).flushed 7 t = ((cfg0.win 7).blk t).view.read (Elt Ideal) (cellNext X H C Wt B) := by
  show (cfg0.win 7).cut (grid0.coords t) ((dat0 V c).after 7 t) = _
  rw [after0_7]
  funext y
  obtain ⟨p, q, rfl⟩ : ∃ (p : Fin 256) (q : Fin 1024), y = ix2 p q := ⟨y 0, y 1, eq_ix2 (n0 := 256) (n1 := 1024) y⟩
  show out0_7 (xblk V c t) (hblk V c t) (cblk V c t) (wxblk V c t) (whblk V c t) (bblk V c t) (ix2 p q)
    = cellNext X H C Wt B (((cfg0.win 7).blk t).view.emb (ix2 p q))
  rw [cell_emb, cell_at_point hV t p q (rowAt t p) rfl]
  rfl

/-- Point `t` writes back its rows of the new hidden state. -/
theorem flushed_hidden {c : Dev nD} {X H C : Act} {Wt : Wts} {B : Bias} (hV : Holds V c X H C Wt B) (t : Fin cfg0.N) :
    (dat0 V c).flushed 6 t = ((cfg0.win 6).blk t).view.read (Elt Ideal) (hiddenNext X H C Wt B) := by
  show (cfg0.win 6).cut (grid0.coords t) ((dat0 V c).after 6 t) = _
  rw [after0_6]
  funext y
  obtain ⟨p, q, rfl⟩ : ∃ (p : Fin 256) (q : Fin 1024), y = ix2 p q := ⟨y 0, y 1, eq_ix2 (n0 := 256) (n1 := 1024) y⟩
  show out0_6 (xblk V c t) (hblk V c t) (cblk V c t) (wxblk V c t) (whblk V c t) (bblk V c t) (ix2 p q)
    = hiddenNext X H C Wt B (((cfg0.win 6).blk t).view.emb (ix2 p q))
  rw [hidden_emb, hidden_at_point hV t p q (rowAt t p) rfl]
  rfl

/-! ## The blocks tile the rows -/

/-- An index of the cell array is in point `t`'s block iff each coordinate is in the block's range on its axis. -/
theorem mem_cell_blk (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v12_1).slice (win0_7.rect t)).set ↔ _
  rw [View.set_slice_whole, Rect.mem_set_unit]
  exact Iff.rfl

theorem mem_hidden_blk (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v12_0).slice (win0_6.rect t)).set ↔ _
  rw [View.set_slice_whole, Rect.mem_set_unit]
  exact Iff.rfl

/-- The point whose block holds row `r`. -/
def pointOf (i : S4096x1024.Idx) : Fin cfg0.N := ⟨(i 0).val / 256, by
  have h : (i 0).val < 4096 := (i 0).isLt
  rw [show cfg0.N = 16 from N_0]; omega⟩

theorem cell_cover (i : S4096x1024.Idx) : ∃ t : Fin cfg0.N, (cfg0.win 7).flush t = true ∧ i ∈ ((cfg0.win 7).blk t).view.set := by
  refine ⟨pointOf i, flush0_7 _, ?_⟩
  rw [mem_cell_blk]
  obtain ⟨-, -, -, -, -, -, -, -, -, -, -, -, -, -, -, -, e0, e1⟩ := index_facts (pointOf i)
  have h0 : (i 0).val < 4096 := (i 0).isLt
  have h1 : (i 1).val < 1024 := (i 1).isLt
  have hp : (pointOf i).val = (i 0).val / 256 := rfl
  intro a
  match a with
  | ⟨0, _⟩ => show win0_7.index (pointOf i) (0 : Fin 2) * 256 ≤ (i 0).val ∧ (i 0).val < win0_7.index (pointOf i) (0 : Fin 2) * 256 + 256; omega
  | ⟨1, _⟩ => show win0_7.index (pointOf i) (1 : Fin 2) * 1024 ≤ (i 1).val ∧ (i 1).val < win0_7.index (pointOf i) (1 : Fin 2) * 1024 + 1024; omega

theorem hidden_cover (i : S4096x1024.Idx) : ∃ t : Fin cfg0.N, (cfg0.win 6).flush t = true ∧ i ∈ ((cfg0.win 6).blk t).view.set := by
  refine ⟨pointOf i, flush0_6 _, ?_⟩
  rw [mem_hidden_blk]
  obtain ⟨-, -, -, -, -, -, -, -, -, -, -, -, -, -, e0, e1, -⟩ := index_facts (pointOf i)
  have h0 : (i 0).val < 4096 := (i 0).isLt
  have h1 : (i 1).val < 1024 := (i 1).isLt
  have hp : (pointOf i).val = (i 0).val / 256 := rfl
  intro a
  match a with
  | ⟨0, _⟩ => show win0_6.index (pointOf i) (0 : Fin 2) * 256 ≤ (i 0).val ∧ (i 0).val < win0_6.index (pointOf i) (0 : Fin 2) * 256 + 256; omega
  | ⟨1, _⟩ => show win0_6.index (pointOf i) (1 : Fin 2) * 1024 ≤ (i 1).val ∧ (i 1).val < win0_6.index (pointOf i) (1 : Fin 2) * 1024 + 1024; omega

/-! ## The result arrays after the call -/

/-- The cell result array ends at the new cell state. -/
theorem final_cell {c : Dev nD} {X H C : Act} {Wt : Wts} {B : Bias} (hV : Holds V c X H C Wt B) :
    (dat0 V c).arrAt 7 cfg0.N = cellNext X H C Wt B :=
  (dat0 V c).arrAt_eq_of_cover 7 (cellNext X H C Wt B) (fun t _ => flushed_cell hV t) cell_cover

/-- The hidden result array ends at the new hidden state. -/
theorem final_hidden {c : Dev nD} {X H C : Act} {Wt : Wts} {B : Bias} (hV : Holds V c X H C Wt B) :
    (dat0 V c).arrAt 6 cfg0.N = hiddenNext X H C Wt B :=
  (dat0 V c).arrAt_eq_of_cover 6 (hiddenNext X H C Wt B) (fun t _ => flushed_hidden hV t) hidden_cover

end Cert.KernelIdeal.Region0

end
-- ==== Proof.Region1.lean ====
/-
  The second pallas_call's two result arrays, as functions of the arrays the call finds on entry.

  The grid has 16 points; point `t` works on batch rows `256 t … 256 t + 255`. The input, hidden-state and cell-state
  windows and the two result windows move with the point (block `(t, 0)`); the two weight stacks and the bias rows are
  one block, the same at every point. So row `p` of a block at point `t` is row `256 t + p` of its array, and what the
  point writes back to a result window is rows `256 t …` of the LSTM step of the whole arrays. The 16 blocks tile the
  4096 rows, so after the call each result array is the LSTM step of `Spec.lean`.

  The weight stacks the call finds are the host's rearrangement of the stacked gate weights: entry `(g, k, q)` of the
  input stack is column `k` of unit `q`'s row of gate `g`, entry `(g, k, q)` of the recurrent stack is column `1024 + k`.
-/
import proofs.«109238_j23639499997827_1_alg».proof.Proof.Gen.KernelIdeal.Frame
import proofs.«109238_j23639499997827_1_alg».proof.Proof.KernelBlock
import proofs.«109238_j23639499997827_1_alg».proof.Proof.Spec
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Cert.KernelIdeal.Block Idealize.ShloMosaic Idealize.ShloMosaic.TcCoe
open Idealize.ShloMosaic.ValueIdx Idealize.SL.Sem
open Idealize.ShloMosaic.Pipeline (Dat)
open Cert.LstmCell

variable (V : (c : Dev nD) → (b : Ref sig .tc) → Buf (Elt Ideal) ((c : Thread nD τ).loc b))

/-- What the call's six operand arrays hold on entry, in terms of the step's operands. -/
structure Holds (c : Dev nD) (X H C : Act) (Wt : Wts) (B : Bias) : Prop where
  hx : (V c main_arg1 : S4096x1024.Idx → EReal) = X
  hh : (V c main_arg4 : S4096x1024.Idx → EReal) = H
  hc : (V c main_arg5 : S4096x1024.Idx → EReal) = C
  hwx : ∀ (g : Fin 4) (k q : Fin 1024), (V c main_v8 : S4x1024x1024.Idx → EReal) (ix3 g k q) = Wt (ix3 g q (inCol k))
  hwh : ∀ (g : Fin 4) (k q : Fin 1024), (V c main_v11 : S4x1024x1024.Idx → EReal) (ix3 g k q) = Wt (ix3 g q (recCol k))
  hb : (V c main_arg9 : S4x1024.Idx → EReal) = B

/-! ## The printed index maps, decided over the grid -/

theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem point_lt (t : Fin cfg1.N) : t.val < 16 := by
  exact lt_of_lt_of_eq t.isLt (N_1 : cfg1.N = 16)

/-! ## The input blocks at a point, by their literal types -/

abbrev xblk (c : Dev nD) (t : Fin cfg1.N) : Vec Ideal S256x1024 .f32 := iblk1 V c 0 t
abbrev hblk (c : Dev nD) (t : Fin cfg1.N) : Vec Ideal S256x1024 .f32 := iblk1 V c 1 t
abbrev cblk (c : Dev nD) (t : Fin cfg1.N) : Vec Ideal S256x1024 .f32 := iblk1 V c 2 t
abbrev wxblk (c : Dev nD) (t : Fin cfg1.N) : Vec Ideal S4x1024x1024 .bf16 := iblk1 V c 3 t
abbrev whblk (c : Dev nD) (t : Fin cfg1.N) : Vec Ideal S4x1024x1024 .bf16 := iblk1 V c 4 t
abbrev bblk (c : Dev nD) (t : Fin cfg1.N) : Vec Ideal S4x1024 .f32 := iblk1 V c 5 t

/-- Row `p` of the input block at point `t` is row `256 t + p` of the input. -/
theorem xblk_apply (c : Dev nD) (t : Fin cfg1.N) (p : Fin 256) (k : Fin 1024) (r : Fin 4096) (hr : r.val = 256 * t.val + p.val) :
    xblk V c t (ix2 p k) = (V c main_arg1 : S4096x1024.Idx → EReal) (ix2 r k) := by
  obtain ⟨e0, e1, -⟩ := index_facts t
  show (V c main_arg1 : S4096x1024.Idx → EReal) (((cfg1.win 0).blk t).view.emb (ix2 p k)) = _
  refine congrArg (V c main_arg1 : S4096x1024.Idx → EReal) (funext fun a => Fin.ext ?_)
  match a with
  | ⟨0, _⟩ => show win1_0.index t (0 : Fin 2) * 256 + 1 * p.val = r.val; omega
  | ⟨1, _⟩ => show win1_0.index t (1 : Fin 2) * 1024 + 1 * k.val = k.val; omega

/-- The same for the hidden state's block. -/
theorem hblk_apply (c : Dev nD) (t : Fin cfg1.N) (p : Fin 256) (k : Fin 1024) (r : Fin 4096) (hr : r.val = 256 * t.val + p.val) :
    hblk V c t (ix2 p k) = (V c main_arg4 : S4096x1024.Idx → EReal) (ix2 r k) := by
  obtain ⟨-, -, e0, e1, -⟩ := index_facts t
  show (V c main_arg4 : S4096x1024.Idx → EReal) (((cfg1.win 1).blk t).view.emb (ix2 p k)) = _
  refine congrArg (V c main_arg4 : S4096x1024.Idx → EReal) (funext fun a => Fin.ext ?_)
  match a with
  | ⟨0, _⟩ => show win1_1.index t (0 : Fin 2) * 256 + 1 * p.val = r.val; omega
  | ⟨1, _⟩ => show win1_1.index t (1 : Fin 2) * 1024 + 1 * k.val = k.val; omega

/-- The same for the cell state's block. -/
theorem cblk_apply (c : Dev nD) (t : Fin cfg1.N) (p : Fin 256) (k : Fin 1024) (r : Fin 4096) (hr : r.val = 256 * t.val + p.val) :
    cblk V c t (ix2 p k) = (V c main_arg5 : S4096x1024.Idx → EReal) (ix2 r k) := by
  obtain ⟨-, -, -, -, e0, e1, -⟩ := index_facts t
  show (V c main_arg5 : S4096x1024.Idx → EReal) (((cfg1.win 2).blk t).view.emb (ix2 p k)) = _
  refine congrArg (V c main_arg5 : S4096x1024.Idx → EReal) (funext fun a => Fin.ext ?_)
  match a with
  | ⟨0, _⟩ => show win1_2.index t (0 : Fin 2) * 256 + 1 * p.val = r.val; omega
  | ⟨1, _⟩ => show win1_2.index t (1 : Fin 2) * 1024 + 1 * k.val = k.val; omega

/-- The input weights' one block is the whole stack. -/
theorem wxblk_apply (c : Dev nD) (t : Fin cfg1.N) (g : Fin 4) (k q : Fin 1024) :
    wxblk V c t (ix3 g k q) = (V c main_v8 : S4x1024x1024.Idx → EReal) (ix3 g k q) := by
  obtain ⟨-, -, -, -, -, -, e0, e1, e2, -⟩ := index_facts t
  show (V c main_v8 : S4x1024x1024.Idx → EReal) (((cfg1.win 3).blk t).view.emb (ix3 g k q)) = _
  refine congrArg (V c main_v8 : S4x1024x1024.Idx → EReal) (funext fun a => Fin.ext ?_)
  match a with
  | ⟨0, _⟩ => show win1_3.index t (0 : Fin 3) * 4 + 1 * g.val = g.val; omega
  | ⟨1, _⟩ => show win1_3.index t (1 : Fin 3) * 1024 + 1 * k.val = k.val; omega
  | ⟨2, _⟩ => show win1_3.index t (2 : Fin 3) * 1024 + 1 * q.val = q.val; omega

/-- The recurrent weights' one block is the whole stack. -/
theorem whblk_apply (c : Dev nD) (t : Fin cfg1.N) (g : Fin 4) (k q : Fin 1024) :
    whblk V c t (ix3 g k q) = (V c main_v11 : S4x1024x1024.Idx → EReal) (ix3 g k q) := by
  obtain ⟨-, -, -, -, -, -, -, -, -, e0, e1, e2, -⟩ := index_facts t
  show (V c main_v11 : S4x1024x1024.Idx → EReal) (((cfg1.win 4).blk t).view.emb (ix3 g k q)) = _
  refine congrArg (V c main_v11 : S4x1024x1024.Idx → EReal) (funext fun a => Fin.ext ?_)
  match a with
  | ⟨0, _⟩ => show win1_4.index t (0 : Fin 3) * 4 + 1 * g.val = g.val; omega
  | ⟨1, _⟩ => show win1_4.index t (1 : Fin 3) * 1024 + 1 * k.val = k.val; omega
  | ⟨2, _⟩ => show win1_4.index t (2 : Fin 3) * 1024 + 1 * q.val = q.val; omega

/-- The bias rows' one block is all four rows. -/
theorem bblk_apply (c : Dev nD) (t : Fin cfg1.N) (g : Fin 4) (q : Fin 1024) :
    bblk V c t (ix2 g q) = (V c main_arg9 : S4x1024.Idx → EReal) (ix2 g q) := by
  obtain ⟨-, -, -, -, -, -, -, -, -, -, -, -, e0, e1, -⟩ := index_facts t
  show (V c main_arg9 : S4x1024.Idx → EReal) (((cfg1.win 5).blk t).view.emb (ix2 g q)) = _
  refine congrArg (V c main_arg9 : S4x1024.Idx → EReal) (funext fun a => Fin.ext ?_)
  match a with
  | ⟨0, _⟩ => show win1_5.index t (0 : Fin 2) * 4 + 1 * g.val = g.val; omega
  | ⟨1, _⟩ => show win1_5.index t (1 : Fin 2) * 1024 + 1 * q.val = q.val; omega

/-! ## The step on a block is the step on the arrays, at the block's rows -/

variable {V}

/-- A gate's pre-activation on the blocks at point `t`, row `p`, is the gate's pre-activation at row `256 t + p`. -/
theorem gate_at_point {c : Dev nD} {X H C : Act} {Wt : Wts} {B : Bias} (hV : Holds V c X H C Wt B) (t : Fin cfg1.N)
    (g : Fin 4) (p : Fin 256) (q : Fin 1024) (r : Fin 4096) (hr : r.val = 256 * t.val + p.val) :
    blockGate (xblk V c t) (hblk V c t) (wxblk V c t) (whblk V c t) (bblk V c t) g p q = gate X H Wt B g r q := by
  unfold blockGate gate
  simp only [xblk_apply V c t p _ r hr, hblk_apply V c t p _ r hr, wxblk_apply, whblk_apply, bblk_apply, hV.hx, hV.hh, hV.hwx,
    hV.hwh, hV.hb]

/-- The new cell block at point `t`, entry `(p, q)`. -/
theorem cell_at_point {c : Dev nD} {X H C : Act} {Wt : Wts} {B : Bias} (hV : Holds V c X H C Wt B) (t : Fin cfg1.N)
    (p : Fin 256) (q : Fin 1024) (r : Fin 4096) (hr : r.val = 256 * t.val + p.val) :
    out1_7 (xblk V c t) (hblk V c t) (cblk V c t) (wxblk V c t) (whblk V c t) (bblk V c t) (ix2 p q) = cellAt X H C Wt B r q := by
  rw [cell_block1, gate_at_point hV t 0 p q r hr, gate_at_point hV t 1 p q r hr, gate_at_point hV t 3 p q r hr,
    cblk_apply V c t p q r hr, hV.hc]
  rfl

/-- The new hidden block at point `t`, entry `(p, q)`. -/
theorem hidden_at_point {c : Dev nD} {X H C : Act} {Wt : Wts} {B : Bias} (hV : Holds V c X H C Wt B) (t : Fin cfg1.N)
    (p : Fin 256) (q : Fin 1024) (r : Fin 4096) (hr : r.val = 256 * t.val + p.val) :
    out1_6 (xblk V c t) (hblk V c t) (cblk V c t) (wxblk V c t) (whblk V c t) (bblk V c t) (ix2 p q) = hiddenAt X H C Wt B r q := by
  rw [hidden_block1, gate_at_point hV t 2 p q r hr, cell_at_point hV t p q r hr]
  rfl

/-! ## What a point writes back -/

/-- Row `256 t + p` of the batch. -/
def rowAt (t : Fin cfg1.N) (p : Fin 256) : Fin 4096 := ⟨256 * t.val + p.val, by have := point_lt t; have := p.isLt; omega⟩

/-- Entry `(p, q)` of the cell window's block at point `t` sits at row `256 t + p`, column `q` of its array. -/
theorem cell_emb (t : Fin cfg1.N) (p : Fin 256) (q : Fin 1024) :
    ((cfg1.win 7).blk t).view.emb (ix2 p q) = (ix2 (rowAt t p) q : S4096x1024.Idx) := by
  obtain ⟨-, -, -, -, -, -, -, -, -, -, -, -, -, -, -, -, e0, e1⟩ := index_facts t
  refine funext fun a => Fin.ext ?_
  match a with
  | ⟨0, _⟩ => show win1_7.index t (0 : Fin 2) * 256 + 1 * p.val = 256 * t.val + p.val; omega
  | ⟨1, _⟩ => show win1_7.index t (1 : Fin 2) * 1024 + 1 * q.val = q.val; omega

/-- The same for the hidden window's block. -/
theorem hidden_emb (t : Fin cfg1.N) (p : Fin 256) (q : Fin 1024) :
    ((cfg1.win 6).blk t).view.emb (ix2 p q) = (ix2 (rowAt t p) q : S4096x1024.Idx) := by
  obtain ⟨-, -, -, -, -, -, -, -, -, -, -, -, -, -, e0, e1, -⟩ := index_facts t
  refine funext fun a => Fin.ext ?_
  match a with
  | ⟨0, _⟩ => show win1_6.index t (0 : Fin 2) * 256 + 1 * p.val = 256 * t.val + p.val; omega
  | ⟨1, _⟩ => show win1_6.index t (1 : Fin 2) * 1024 + 1 * q.val = q.val; omega

/-- Point `t` writes back its rows of the new cell state. -/
theorem flushed_cell {c : Dev nD} {X H C : Act} {Wt : Wts} {B : Bias} (hV : Holds V c X H C Wt B) (t : Fin cfg1.N) :
    (dat1 V c).flushed 7 t = ((cfg1.win 7).blk t).view.read (Elt Ideal) (cellNext X H C Wt B) := by
  show (cfg1.win 7).cut (grid1.coords t) ((dat1 V c).after 7 t) = _
  rw [after1_7]
  funext y
  obtain ⟨p, q, rfl⟩ : ∃ (p : Fin 256) (q : Fin 1024), y = ix2 p q := ⟨y 0, y 1, eq_ix2 (n0 := 256) (n1 := 1024) y⟩
  show out1_7 (xblk V c t) (hblk V c t) (cblk V c t) (wxblk V c t) (whblk V c t) (bblk V c t) (ix2 p q)
    = cellNext X H C Wt B (((cfg1.win 7).blk t).view.emb (ix2 p q))
  rw [cell_emb, cell_at_point hV t p q (rowAt t p) rfl]
  rfl

/-- Point `t` writes back its rows of the new hidden state. -/
theorem flushed_hidden {c : Dev nD} {X H C : Act} {Wt : Wts} {B : Bias} (hV : Holds V c X H C Wt B) (t : Fin cfg1.N) :
    (dat1 V c).flushed 6 t = ((cfg1.win 6).blk t).view.read (Elt Ideal) (hiddenNext X H C Wt B) := by
  show (cfg1.win 6).cut (grid1.coords t) ((dat1 V c).after 6 t) = _
  rw [after1_6]
  funext y
  obtain ⟨p, q, rfl⟩ : ∃ (p : Fin 256) (q : Fin 1024), y = ix2 p q := ⟨y 0, y 1, eq_ix2 (n0 := 256) (n1 := 1024) y⟩
  show out1_6 (xblk V c t) (hblk V c t) (cblk V c t) (wxblk V c t) (whblk V c t) (bblk V c t) (ix2 p q)
    = hiddenNext X H C Wt B (((cfg1.win 6).blk t).view.emb (ix2 p q))
  rw [hidden_emb, hidden_at_point hV t p q (rowAt t p) rfl]
  rfl

/-! ## The blocks tile the rows -/

/-- An index of the cell array is in point `t`'s block iff each coordinate is in the block's range on its axis. -/
theorem mem_cell_blk (t : Fin cfg1.N) (i : S4096x1024.Idx) :
    i ∈ ((cfg1.win 7).blk t).view.set ↔ ∀ a : Fin 2, win1_7.index t a * S256x1024.size a ≤ (i a).val ∧ (i a).val < win1_7.index t a * S256x1024.size a + S256x1024.size a := by
  show i ∈ ((View.whole main_v13_1).slice (win1_7.rect t)).set ↔ _
  rw [View.set_slice_whole, Rect.mem_set_unit]
  exact Iff.rfl

theorem mem_hidden_blk (t : Fin cfg1.N) (i : S4096x1024.Idx) :
    i ∈ ((cfg1.win 6).blk t).view.set ↔ ∀ a : Fin 2, win1_6.index t a * S256x1024.size a ≤ (i a).val ∧ (i a).val < win1_6.index t a * S256x1024.size a + S256x1024.size a := by
  show i ∈ ((View.whole main_v13_0).slice (win1_6.rect t)).set ↔ _
  rw [View.set_slice_whole, Rect.mem_set_unit]
  exact Iff.rfl

/-- The point whose block holds row `r`. -/
def pointOf (i : S4096x1024.Idx) : Fin cfg1.N := ⟨(i 0).val / 256, by
  have h : (i 0).val < 4096 := (i 0).isLt
  rw [show cfg1.N = 16 from N_1]; omega⟩

theorem cell_cover (i : S4096x1024.Idx) : ∃ t : Fin cfg1.N, (cfg1.win 7).flush t = true ∧ i ∈ ((cfg1.win 7).blk t).view.set := by
  refine ⟨pointOf i, flush1_7 _, ?_⟩
  rw [mem_cell_blk]
  obtain ⟨-, -, -, -, -, -, -, -, -, -, -, -, -, -, -, -, e0, e1⟩ := index_facts (pointOf i)
  have h0 : (i 0).val < 4096 := (i 0).isLt
  have h1 : (i 1).val < 1024 := (i 1).isLt
  have hp : (pointOf i).val = (i 0).val / 256 := rfl
  intro a
  match a with
  | ⟨0, _⟩ => show win1_7.index (pointOf i) (0 : Fin 2) * 256 ≤ (i 0).val ∧ (i 0).val < win1_7.index (pointOf i) (0 : Fin 2) * 256 + 256; omega
  | ⟨1, _⟩ => show win1_7.index (pointOf i) (1 : Fin 2) * 1024 ≤ (i 1).val ∧ (i 1).val < win1_7.index (pointOf i) (1 : Fin 2) * 1024 + 1024; omega

theorem hidden_cover (i : S4096x1024.Idx) : ∃ t : Fin cfg1.N, (cfg1.win 6).flush t = true ∧ i ∈ ((cfg1.win 6).blk t).view.set := by
  refine ⟨pointOf i, flush1_6 _, ?_⟩
  rw [mem_hidden_blk]
  obtain ⟨-, -, -, -, -, -, -, -, -, -, -, -, -, -, e0, e1, -⟩ := index_facts (pointOf i)
  have h0 : (i 0).val < 4096 := (i 0).isLt
  have h1 : (i 1).val < 1024 := (i 1).isLt
  have hp : (pointOf i).val = (i 0).val / 256 := rfl
  intro a
  match a with
  | ⟨0, _⟩ => show win1_6.index (pointOf i) (0 : Fin 2) * 256 ≤ (i 0).val ∧ (i 0).val < win1_6.index (pointOf i) (0 : Fin 2) * 256 + 256; omega
  | ⟨1, _⟩ => show win1_6.index (pointOf i) (1 : Fin 2) * 1024 ≤ (i 1).val ∧ (i 1).val < win1_6.index (pointOf i) (1 : Fin 2) * 1024 + 1024; omega

/-! ## The result arrays after the call -/

/-- The cell result array ends at the new cell state. -/
theorem final_cell {c : Dev nD} {X H C : Act} {Wt : Wts} {B : Bias} (hV : Holds V c X H C Wt B) :
    (dat1 V c).arrAt 7 cfg1.N = cellNext X H C Wt B :=
  (dat1 V c).arrAt_eq_of_cover 7 (cellNext X H C Wt B) (fun t _ => flushed_cell hV t) cell_cover

/-- The hidden result array ends at the new hidden state. -/
theorem final_hidden {c : Dev nD} {X H C : Act} {Wt : Wts} {B : Bias} (hV : Holds V c X H C Wt B) :
    (dat1 V c).arrAt 6 cfg1.N = hiddenNext X H C Wt B :=
  (dat1 V c).arrAt_eq_of_cover 6 (hiddenNext X H C Wt B) (fun t _ => flushed_hidden hV t) hidden_cover

end Cert.KernelIdeal.Region1

end
-- ==== Proof.KernelValue.lean ====
/-
  The idealized kernel's run, read: its four result arrays are the LSTM step of the arguments.

  Before the two calls the host cuts each direction's stacked gate weights into the input half and the recurrent half
  (columns `0 … 1023` and `1024 … 2047`), swaps the last two axes of each half, and narrows it (the identity at the
  ideal instance). So entry `(g, k, q)` of an input stack is column `k` of unit `q`'s row of gate `g`, and entry `(g, k, q)`
  of a recurrent stack is column `1024 + k` of that row: what the two calls are proved against. The argument arrays pass
  through the host stretch untouched, and the second call's operands pass through the first call untouched.
-/
import proofs.«109238_j23639499997827_1_alg».proof.Proof.Gen.KernelIdeal.Frame
import proofs.«109238_j23639499997827_1_alg».proof.Proof.Region0
import proofs.«109238_j23639499997827_1_alg».proof.Proof.Region1
import proofs.«109238_j23639499997827_1_alg».proof.Proof.RunResults
import proofs.«109238_j23639499997827_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Stepped

open Cert.KernelIdeal Cert.KernelIdeal.Gen Idealize.ShloMosaic Idealize.ShloMosaic.TcCoe Idealize.ShloMosaic.ValueIdx
open Idealize.SL.Sem Idealize.ShloMosaic.StableHlo
open Cert.LstmCell

variable (m : (ℓ : Loc nD τ sig) → Buf (Elt Ideal) ℓ) (ρ : Dev nD → PrngReg)

/-! ## The host stretch leaves the arguments alone -/

theorem stretch_arg0 (c : Dev nD) : V1 m ρ c main_arg0 = m ((c : Thread nD τ).loc main_arg0) := by
  show StableHlo.after hostOps0 (W0 m ρ c) (Proc.devRef .tc main_arg0) = _
  after_results <;> rfl
theorem stretch_arg1 (c : Dev nD) : V1 m ρ c main_arg1 = m ((c : Thread nD τ).loc main_arg1) := by
  show StableHlo.after hostOps0 (W0 m ρ c) (Proc.devRef .tc main_arg1) = _
  after_results <;> rfl
theorem stretch_arg2 (c : Dev nD) : V1 m ρ c main_arg2 = m ((c : Thread nD τ).loc main_arg2) := by
  show StableHlo.after hostOps0 (W0 m ρ c) (Proc.devRef .tc main_arg2) = _
  after_results <;> rfl
theorem stretch_arg3 (c : Dev nD) : V1 m ρ c main_arg3 = m ((c : Thread nD τ).loc main_arg3) := by
  show StableHlo.after hostOps0 (W0 m ρ c) (Proc.devRef .tc main_arg3) = _
  after_results <;> rfl
theorem stretch_arg4 (c : Dev nD) : V1 m ρ c main_arg4 = m ((c : Thread nD τ).loc main_arg4) := by
  show StableHlo.after hostOps0 (W0 m ρ c) (Proc.devRef .tc main_arg4) = _
  after_results <;> rfl
theorem stretch_arg5 (c : Dev nD) : V1 m ρ c main_arg5 = m ((c : Thread nD τ).loc main_arg5) := by
  show StableHlo.after hostOps0 (W0 m ρ c) (Proc.devRef .tc main_arg5) = _
  after_results <;> rfl
theorem stretch_arg7 (c : Dev nD) : V1 m ρ c main_arg7 = m ((c : Thread nD τ).loc main_arg7) := by
  show StableHlo.after hostOps0 (W0 m ρ c) (Proc.devRef .tc main_arg7) = _
  after_results <;> rfl
theorem stretch_arg9 (c : Dev nD) : V1 m ρ c main_arg9 = m ((c : Thread nD τ).loc main_arg9) := by
  show StableHlo.after hostOps0 (W0 m ρ c) (Proc.devRef .tc main_arg9) = _
  after_results <;> rfl

/-! ## The weight stacks the host makes -/

/-- The input half of stacked gate weights, last two axes swapped, at `(g, k, q)`. -/
theorem in_half_apply (W : S4x1024x2048.Idx → EReal) (g : Fin 4) (k q : Fin 1024) :
    (truncf (F := Ideal) .bf16 (transpose S4x1024x1024 [0, 2, 1]
        (extractStridedSlice S4x1024x1024 ![0, 0, 0] W slices_S4x1024x2048_S4x1024x1024_0_0_0)
        transposes_S4x1024x1024_S4x1024x1024_0_2_1) bitsLt_bf16_f32 : S4x1024x1024.Idx → EReal) (ix3 g k q)
      = W (ix3 g q (inCol k)) := by
  show transpose S4x1024x1024 [0, 2, 1] (extractStridedSlice S4x1024x1024 ![0, 0, 0] W slices_S4x1024x2048_S4x1024x1024_0_0_0)
      transposes_S4x1024x1024_S4x1024x1024_0_2_1 (ix3 g k q) = _
  rw [transpose_ix3_021_apply]
  exact extractStridedSlice_apply _ _ _ (ix3 g q k) (ix3 g q (inCol k)) (fun a => match a with
    | ⟨0, _⟩ => by show g.val = 0 + g.val; omega
    | ⟨1, _⟩ => by show q.val = 0 + q.val; omega
    | ⟨2, _⟩ => by show k.val = 0 + k.val; omega)

/-- The recurrent half, last two axes swapped, at `(g, k, q)`. -/
theorem rec_half_apply (W : S4x1024x2048.Idx → EReal) (g : Fin 4) (k q : Fin 1024) :
    (truncf (F := Ideal) .bf16 (transpose S4x1024x1024 [0, 2, 1]
        (extractStridedSlice S4x1024x1024 ![0, 0, 1024] W slices_S4x1024x2048_S4x1024x1024_0_0_1024)
        transposes_S4x1024x1024_S4x1024x1024_0_2_1) bitsLt_bf16_f32 : S4x1024x1024.Idx → EReal) (ix3 g k q)
      = W (ix3 g q (recCol k)) := by
  show transpose S4x1024x1024 [0, 2, 1] (extractStridedSlice S4x1024x1024 ![0, 0, 1024] W slices_S4x1024x2048_S4x1024x1024_0_0_1024)
      transposes_S4x1024x1024_S4x1024x1024_0_2_1 (ix3 g k q) = _
  rw [transpose_ix3_021_apply]
  exact extractStridedSlice_apply _ _ _ (ix3 g q k) (ix3 g q (recCol k)) (fun a => match a with
    | ⟨0, _⟩ => by show g.val = 0 + g.val; omega
    | ⟨1, _⟩ => by show q.val = 0 + q.val; omega
    | ⟨2, _⟩ => by show 1024 + k.val = 1024 + k.val; rfl)

/-- The forward input stack. -/
theorem stretch_v2 (c : Dev nD) (g : Fin 4) (k q : Fin 1024) :
    (V1 m ρ c main_v2 : S4x1024x1024.Idx → EReal) (ix3 g k q)
      = (m ((c : Thread nD τ).loc main_arg6) : S4x1024x2048.Idx → EReal) (ix3 g q (inCol k)) := by
  have e : (V1 m ρ c main_v2 : S4x1024x1024.Idx → EReal)
      = truncf (F := Ideal) .bf16 (transpose S4x1024x1024 [0, 2, 1] (extractStridedSlice S4x1024x1024 ![0, 0, 0]
          (m ((c : Thread nD τ).loc main_arg6) : S4x1024x2048.Idx → EReal) slices_S4x1024x2048_S4x1024x1024_0_0_0)
          transposes_S4x1024x1024_S4x1024x1024_0_2_1) bitsLt_bf16_f32 := by
    show StableHlo.after hostOps0 (W0 m ρ c) (Proc.devRef .tc main_v2) = _
    after_results <;> rfl
  rw [e]; exact in_half_apply _ g k q

/-- The forward recurrent stack. -/
theorem stretch_v5 (c : Dev nD) (g : Fin 4) (k q : Fin 1024) :
    (V1 m ρ c main_v5 : S4x1024x1024.Idx → EReal) (ix3 g k q)
      = (m ((c : Thread nD τ).loc main_arg6) : S4x1024x2048.Idx → EReal) (ix3 g q (recCol k)) := by
  have e : (V1 m ρ c main_v5 : S4x1024x1024.Idx → EReal)
      = truncf (F := Ideal) .bf16 (transpose S4x1024x1024 [0, 2, 1] (extractStridedSlice S4x1024x1024 ![0, 0, 1024]
          (m ((c : Thread nD τ).loc main_arg6) : S4x1024x2048.Idx → EReal) slices_S4x1024x2048_S4x1024x1024_0_0_1024)
          transposes_S4x1024x1024_S4x1024x1024_0_2_1) bitsLt_bf16_f32 := by
    show StableHlo.after hostOps0 (W0 m ρ c) (Proc.devRef .tc main_v5) = _
    after_results <;> rfl
  rw [e]; exact rec_half_apply _ g k q

/-- The backward input stack. -/
theorem stretch_v8 (c : Dev nD) (g : Fin 4) (k q : Fin 1024) :
    (V1 m ρ c main_v8 : S4x1024x1024.Idx → EReal) (ix3 g k q)
      = (m ((c : Thread nD τ).loc main_arg8) : S4x1024x2048.Idx → EReal) (ix3 g q (inCol k)) := by
  have e : (V1 m ρ c main_v8 : S4x1024x1024.Idx → EReal)
      = truncf (F := Ideal) .bf16 (transpose S4x1024x1024 [0, 2, 1] (extractStridedSlice S4x1024x1024 ![0, 0, 0]
          (m ((c : Thread nD τ).loc main_arg8) : S4x1024x2048.Idx → EReal) slices_S4x1024x2048_S4x1024x1024_0_0_0)
          transposes_S4x1024x1024_S4x1024x1024_0_2_1) bitsLt_bf16_f32 := by
    show StableHlo.after hostOps0 (W0 m ρ c) (Proc.devRef .tc main_v8) = _
    after_results <;> rfl
  rw [e]; exact in_half_apply _ g k q

/-- The backward recurrent stack. -/
theorem stretch_v11 (c : Dev nD) (g : Fin 4) (k q : Fin 1024) :
    (V1 m ρ c main_v11 : S4x1024x1024.Idx → EReal) (ix3 g k q)
      = (m ((c : Thread nD τ).loc main_arg8) : S4x1024x2048.Idx → EReal) (ix3 g q (recCol k)) := by
  have e : (V1 m ρ c main_v11 : S4x1024x1024.Idx → EReal)
      = truncf (F := Ideal) .bf16 (transpose S4x1024x1024 [0, 2, 1] (extractStridedSlice S4x1024x1024 ![0, 0, 1024]
          (m ((c : Thread nD τ).loc main_arg8) : S4x1024x2048.Idx → EReal) slices_S4x1024x2048_S4x1024x1024_0_0_1024)
          transposes_S4x1024x1024_S4x1024x1024_0_2_1) bitsLt_bf16_f32 := by
    show StableHlo.after hostOps0 (W0 m ρ c) (Proc.devRef .tc main_v11) = _
    after_results <;> rfl
  rw [e]; exact rec_half_apply _ g k q

/-! ## What each call finds on entry -/

/-- The first call finds the forward direction's operands. -/
theorem entry_forward (c : Dev nD) :
    Region0.Holds (V1 m ρ) c (m ((c : Thread nD τ).loc main_arg0)) (m ((c : Thread nD τ).loc main_arg2))
      (m ((c : Thread nD τ).loc main_arg3)) (m ((c : Thread nD τ).loc main_arg6)) (m ((c : Thread nD τ).loc main_arg7)) where
  hx := stretch_arg0 m ρ c
  hh := stretch_arg2 m ρ c
  hc := stretch_arg3 m ρ c
  hwx := stretch_v2 m ρ c
  hwh := stretch_v5 m ρ c
  hb := stretch_arg7 m ρ c

/-- The second call finds the backward direction's operands: the first call writes none of them. -/
theorem entry_backward (c : Dev nD) :
    Region1.Holds (V2 m ρ) c (m ((c : Thread nD τ).loc main_arg1)) (m ((c : Thread nD τ).loc main_arg4))
      (m ((c : Thread nD τ).loc main_arg5)) (m ((c : Thread nD τ).loc main_arg8)) (m ((c : Thread nD τ).loc main_arg9)) where
  hx := (W2_of_ne m ρ c main_arg1 (by decide)).trans (stretch_arg1 m ρ c)
  hh := (W2_of_ne m ρ c main_arg4 (by decide)).trans (stretch_arg4 m ρ c)
  hc := (W2_of_ne m ρ c main_arg5 (by decide)).trans (stretch_arg5 m ρ c)
  hwx := fun g k q => (congrFun (W2_of_ne m ρ c main_v8 (by decide)) (ix3 g k q)).trans (stretch_v8 m ρ c g k q)
  hwh := fun g k q => (congrFun (W2_of_ne m ρ c main_v11 (by decide)) (ix3 g k q)).trans (stretch_v11 m ρ c g k q)
  hb := (W2_of_ne m ρ c main_arg9 (by decide)).trans (stretch_arg9 m ρ c)

/-! ## The four result arrays at the end of the run -/

theorem hidden_forward (c : Dev nD) : W3 m ρ c (Proc.devRef .tc main_v12_0)
    = hiddenNext (m ((c : Thread nD τ).loc main_arg0)) (m ((c : Thread nD τ).loc main_arg2))
        (m ((c : Thread nD τ).loc main_arg3)) (m ((c : Thread nD τ).loc main_arg6)) (m ((c : Thread nD τ).loc main_arg7)) :=
  ((W3_of_ne m ρ c main_v12_0 (by decide)).trans (W2_arr m ρ c 6)).trans (Region0.final_hidden (entry_forward m ρ c))

theorem cell_forward (c : Dev nD) : W3 m ρ c (Proc.devRef .tc main_v12_1)
    = cellNext (m ((c : Thread nD τ).loc main_arg0)) (m ((c : Thread nD τ).loc main_arg2))
        (m ((c : Thread nD τ).loc main_arg3)) (m ((c : Thread nD τ).loc main_arg6)) (m ((c : Thread nD τ).loc main_arg7)) :=
  ((W3_of_ne m ρ c main_v12_1 (by decide)).trans (W2_arr m ρ c 7)).trans (Region0.final_cell (entry_forward m ρ c))

theorem hidden_backward (c : Dev nD) : W3 m ρ c (Proc.devRef .tc main_v13_0)
    = hiddenNext (m ((c : Thread nD τ).loc main_arg1)) (m ((c : Thread nD τ).loc main_arg4))
        (m ((c : Thread nD τ).loc main_arg5)) (m ((c : Thread nD τ).loc main_arg8)) (m ((c : Thread nD τ).loc main_arg9)) :=
  (W3_arr m ρ c 6).trans (Region1.final_hidden (entry_backward m ρ c))

theorem cell_backward (c : Dev nD) : W3 m ρ c (Proc.devRef .tc main_v13_1)
    = cellNext (m ((c : Thread nD τ).loc main_arg1)) (m ((c : Thread nD τ).loc main_arg4))
        (m ((c : Thread nD τ).loc main_arg5)) (m ((c : Thread nD τ).loc main_arg8)) (m ((c : Thread nD τ).loc main_arg9)) :=
  (W3_arr m ρ c 7).trans (Region1.final_cell (entry_backward m ρ c))

/-- The run: every weakly fair execution ends with the four results at the LSTM step of the arguments, forward then
    backward, and the arguments as launched. -/
theorem run : θ_run defs (onTc (τ := τ) (main (F := Ideal))) ⟨m, fun _ => 0, ρ⟩ (fun r => ∀ c : Dev nD,
      r.2.mem ((c.tc : Thread nD τ).loc main_v12_0)
        = hiddenNext (m ((c : Thread nD τ).loc main_arg0)) (m ((c : Thread nD τ).loc main_arg2))
            (m ((c : Thread nD τ).loc main_arg3)) (m ((c : Thread nD τ).loc main_arg6)) (m ((c : Thread nD τ).loc main_arg7))
      ∧ r.2.mem ((c.tc : Thread nD τ).loc main_v12_1)
        = cellNext (m ((c : Thread nD τ).loc main_arg0)) (m ((c : Thread nD τ).loc main_arg2))
            (m ((c : Thread nD τ).loc main_arg3)) (m ((c : Thread nD τ).loc main_arg6)) (m ((c : Thread nD τ).loc main_arg7))
      ∧ r.2.mem ((c.tc : Thread nD τ).loc main_v13_0)
        = hiddenNext (m ((c : Thread nD τ).loc main_arg1)) (m ((c : Thread nD τ).loc main_arg4))
            (m ((c : Thread nD τ).loc main_arg5)) (m ((c : Thread nD τ).loc main_arg8)) (m ((c : Thread nD τ).loc main_arg9))
      ∧ r.2.mem ((c.tc : Thread nD τ).loc main_v13_1)
        = cellNext (m ((c : Thread nD τ).loc main_arg1)) (m ((c : Thread nD τ).loc main_arg4))
            (m ((c : Thread nD τ).loc main_arg5)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c).1.trans (hidden_forward m ρ c), (h c).2.1.trans (cell_forward m ρ c),
       (h c).2.2.1.trans (hidden_backward m ρ c), (h c).2.2.2.1.trans (cell_backward m ρ c), (h c).2.2.2.2⟩)
    (Cert.KernelIdeal.Results.run_main (F := Ideal) m ρ)

end Cert.KernelIdeal.Stepped

end
-- ==== Proof.lean ====
/-
  A bidirectional LSTM cell, one step: the kernel against its jnp reference, over the extended reals.

  For each direction, with input `x`, hidden state `h`, cell state `c` (each 4096 × 1024), stacked gate weights `W`
  (4 × 1024 × 2048, the first 1024 columns of a row for the input and the last 1024 for the hidden state) and biases `b`
  (4 × 1024): gate `g` at batch row `r`, unit `j` is `Σ_k x[r,k]·W[g,j,k] + Σ_k h[r,k]·W[g,j,1024+k] + b[g,j]`; the new
  cell state is `σ(gate 0)·c + σ(gate 1)·tanh(gate 3)` and the new hidden state `σ(gate 2)·tanh(new cell)`
  (`Proof/Spec.lean`).

  The reference joins `x` and `h` along the feature axis and contracts the joined row with `W` in one sum over 2048
  columns, which splits into the two sums above; it spells the logistic function `1 / (1 + exp (-v))`
  (`Proof/RefSpec.lean`). The kernel cuts `W` into its two halves on the host, swaps their last two axes, and runs one
  pallas_call per direction over 16 blocks of 256 batch rows, each computing the two matrix products per gate on its
  block (`Proof/KernelBlock.lean`, `Proof/Region0.lean`, `Proof/Region1.lean`, `Proof/KernelValue.lean`). Narrowing to
  bf16 is the identity at the ideal instance, and the law that joins the two sides — a sum over the columns is the sum
  over its two halves — holds for all extended reals, so finiteness of the inputs is not used.
-/
import proofs.«109238_j23639499997827_1_alg».proof.Defs
import proofs.«109238_j23639499997827_1_alg».proof.Proof.Gen.Kernel
import proofs.«109238_j23639499997827_1_alg».proof.Proof.Gen.Kernel.Frame
import proofs.«109238_j23639499997827_1_alg».proof.Proof.Gen.KernelIdeal
import proofs.«109238_j23639499997827_1_alg».proof.Proof.Gen.KernelIdeal.Frame
import proofs.«109238_j23639499997827_1_alg».proof.Proof.Gen.ReferenceIdeal
import proofs.«109238_j23639499997827_1_alg».proof.Proof.Gen.Pre_finite_inputs
import proofs.«109238_j23639499997827_1_alg».proof.Proof.Gen.ReferenceIdeal.Run
import proofs.«109238_j23639499997827_1_alg».proof.Proof.Gen.ReferenceIdeal.Read
import proofs.«109238_j23639499997827_1_alg».proof.Proof.RefSpec
import proofs.«109238_j23639499997827_1_alg».proof.Proof.KernelValue
import Idealize.ShloMosaic.Adequacy
import Idealize.ShloMosaic.Init

noncomputable section

namespace Cert.Proof

open Idealize.ShloMosaic Idealize.SL.Sem Cert.LstmCell

/-- The word-level kernel runs and leaves its arguments alone. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- Both programs end with the LSTM step of the arguments in their four results: the new hidden and cell states of the
    forward direction, then of the backward direction. -/
theorem algebraic : Cert.algebraic_KernelIdeal_ReferenceIdeal := by
  intro m ρ m' ρ' _ hagree
  refine ⟨_, _, _, _, Cert.KernelIdeal.Stepped.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2.1.trans ?_, (h c).2.2.2.1.trans ?_, (h c).2.2.2.2⟩
  · rw [Cert.ReferenceIdeal.Read.val_main_v36_eq, Cert.ReferenceIdeal.RefValue.hidden_eq, a0, a2, a3, a6, a7]
  · rw [Cert.ReferenceIdeal.Read.val_main_v34_eq, Cert.ReferenceIdeal.RefValue.cell_eq, a0, a2, a3, a6, a7]
  · rw [Cert.ReferenceIdeal.Read.val_main_v73_eq, Cert.ReferenceIdeal.RefValue.hidden_back_eq, a1, a4, a5, a8, a9]
  · rw [Cert.ReferenceIdeal.Read.val_main_v71_eq, Cert.ReferenceIdeal.RefValue.cell_back_eq, a1, a4, a5, a8, a9]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
